-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x3 : Shape := ⟨3, ![4, 2048, 3]⟩
abbrev S4x2048x2048 : Shape := ⟨3, ![4, 2048, 2048]⟩
abbrev S4x2048 : Shape := ⟨2, ![4, 2048]⟩
abbrev S_ : Shape := ⟨0, ![]⟩

class Facts : Prop where
  bcast_S_S4x2048x3 : S_.BroadcastsInDim S4x2048x3 (![] : Fin 0 → Fin S4x2048x3.rank)
  reducesTo_S4x2048x3_S_d0_1_2 : S4x2048x3.ReducesTo [0, 1, 2] S_
  h_S_ : 0 < S_.numel

variable [Facts]

def fn {F : FTy → Type} [FloatOps F] (main_arg0 : FVec F S4x2048x3 .f32) (main_arg1 : IVec S4x2048x2048 32) (main_arg2 : IVec S4x2048 1) : IVec S_ 1 :=
  let main_v0 : FVec F S4x2048x3 .f32 := Host.absf main_arg0
  let main_cst : FVec F S_ .f32 := constant S_ .f32 0x7F800000#32
  let main_v1 : FVec F S4x2048x3 .f32 := broadcastInDim S4x2048x3 ![] bcast_S_S4x2048x3 main_cst
  let main_v2 : IVec S4x2048x3 1 := cmpf .olt main_v0 main_v1
  let main_c : IVec S_ 1 := constantI S_ 1 1#1
  let main_v3 : IVec S_ 1 := (fun x v => Host.reduce IntOp.andi x v reducesTo_S4x2048x3_S_d0_1_2 h_S_) main_v2 main_c
  main_v3
-- ==== Kernel.lean ====
abbrev S4x2048x3 : Shape := ⟨3, ![4, 2048, 3]⟩
abbrev S4x2048x2048 : Shape := ⟨3, ![4, 2048, 2048]⟩
abbrev S4x2048 : Shape := ⟨2, ![4, 2048]⟩
abbrev S4x2048x1 : Shape := ⟨3, ![4, 2048, 1]⟩
abbrev S_ : Shape := ⟨0, ![]⟩
abbrev S4x2048x2048x1 : Shape := ⟨4, ![4, 2048, 2048, 1]⟩
abbrev S4x1x2048 : Shape := ⟨3, ![4, 1, 2048]⟩
abbrev S1x128x2048 : Shape := ⟨3, ![1, 128, 2048]⟩
abbrev S1x128x1 : Shape := ⟨3, ![1, 128, 1]⟩
abbrev S1x1x2048 : Shape := ⟨3, ![1, 1, 2048]⟩
abbrev S128x2048 : Shape := ⟨2, ![128, 2048]⟩
abbrev S128x1 : Shape := ⟨2, ![128, 1]⟩
abbrev S1x2048 : Shape := ⟨2, ![1, 2048]⟩

abbrev nBuf : Space → Nat
  | .hbm => 43
  | .vmem => 18
  | .smem => 0
  | _ => 0

abbrev bufTy : (tb : Table) → Fin (tcTables nBuf tb) → BufTy
  | .hbm, ⟨0, _⟩ => ⟨S4x2048x3, .f32⟩
  | .hbm, ⟨1, _⟩ => ⟨S4x2048x2048, .i32⟩
  | .hbm, ⟨2, _⟩ => ⟨S4x2048, .i1⟩
  | .hbm, ⟨3, _⟩ => ⟨S4x2048x1, .f32⟩
  | .hbm, ⟨4, _⟩ => ⟨S4x2048, .f32⟩
  | .hbm, ⟨5, _⟩ => ⟨S4x2048x1, .f32⟩
  | .hbm, ⟨6, _⟩ => ⟨S4x2048, .f32⟩
  | .hbm, ⟨7, _⟩ => ⟨S4x2048x1, .f32⟩
  | .hbm, ⟨8, _⟩ => ⟨S4x2048, .f32⟩
  | .hbm, ⟨9, _⟩ => ⟨S_, .i32⟩
  | .hbm, ⟨10, _⟩ => ⟨S4x2048x2048, .i32⟩
  | .hbm, ⟨11, _⟩ => ⟨S4x2048x2048, .i1⟩
  | .hbm, ⟨12, _⟩ => ⟨S_, .i32⟩
  | .hbm, ⟨13, _⟩ => ⟨S4x2048x2048, .i32⟩
  | .hbm, ⟨14, _⟩ => ⟨S4x2048x2048, .i32⟩
  | .hbm, ⟨15, _⟩ => ⟨S4x2048x2048, .i32⟩
  | .hbm, ⟨16, _⟩ => ⟨S4x2048x2048x1, .i32⟩
  | .hbm, ⟨17, _⟩ => ⟨S4x2048x2048, .f32⟩
  | .hbm, ⟨18, _⟩ => ⟨S_, .i32⟩
  | .hbm, ⟨19, _⟩ => ⟨S4x2048x2048, .i32⟩
  | .hbm, ⟨20, _⟩ => ⟨S4x2048x2048, .i1⟩
  | .hbm, ⟨21, _⟩ => ⟨S_, .i32⟩
  | .hbm, ⟨22, _⟩ => ⟨S4x2048x2048, .i32⟩
  | .hbm, ⟨23, _⟩ => ⟨S4x2048x2048, .i32⟩
  | .hbm, ⟨24, _⟩ => ⟨S4x2048x2048, .i32⟩
  | .hbm, ⟨25, _⟩ => ⟨S4x2048x2048x1, .i32⟩
  | .hbm, ⟨26, _⟩ => ⟨S4x2048x2048, .f32⟩
  | .hbm, ⟨27, _⟩ => ⟨S_, .i32⟩
  | .hbm, ⟨28, _⟩ => ⟨S4x2048x2048, .i32⟩
  | .hbm, ⟨29, _⟩ => ⟨S4x2048x2048, .i1⟩
  | .hbm, ⟨30, _⟩ => ⟨S_, .i32⟩
  | .hbm, ⟨31, _⟩ => ⟨S4x2048x2048, .i32⟩
  | .hbm, ⟨32, _⟩ => ⟨S4x2048x2048, .i32⟩
  | .hbm, ⟨33, _⟩ => ⟨S4x2048x2048, .i32⟩
  | .hbm, ⟨34, _⟩ => ⟨S4x2048x2048x1, .i32⟩
  | .hbm, ⟨35, _⟩ => ⟨S4x2048x2048, .f32⟩
  | .hbm, ⟨36, _⟩ => ⟨S4x2048, .f32⟩
  | .hbm, ⟨37, _⟩ => ⟨S4x2048x1, .f32⟩
  | .hbm, ⟨38, _⟩ => ⟨S4x1x2048, .f32⟩
  | .hbm, ⟨39, _⟩ => ⟨S4x2048x1, .f32⟩
  | .hbm, ⟨40, _⟩ => ⟨S4x2048x1, .f32⟩
  | .hbm, ⟨41, _⟩ => ⟨S4x2048x1, .f32⟩
  | .hbm, ⟨42, _⟩ => ⟨S4x2048x2048, .f32⟩
  | .local _ .vmem, ⟨0, _⟩ => ⟨S1x128x2048, .f32⟩
  | .local _ .vmem, ⟨1, _⟩ => ⟨S1x128x2048, .f32⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x1, .f32⟩
  | .local _ .vmem, ⟨7, _⟩ => ⟨S1x128x1, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x128x1, .f32⟩
  | .local _ .vmem, ⟨13, _⟩ => ⟨S1x128x1, .f32⟩
  | .local _ .vmem, ⟨14, _⟩ => ⟨S1x1x2048, .f32⟩
  | .local _ .vmem, ⟨15, _⟩ => ⟨S1x1x2048, .f32⟩
  | .local _ .vmem, ⟨16, _⟩ => ⟨S1x128x2048, .f32⟩
  | .local _ .vmem, ⟨17, _⟩ => ⟨S1x128x2048, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_c_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S4x2048x3_S4x2048x1_0_0_0 : S4x2048x3.Slices ![0, 0, 0] S4x2048x1
  shapeCasts_S4x2048x1_S4x2048 : S4x2048x1.ShapeCasts S4x2048
  slices_S4x2048x3_S4x2048x1_0_0_1 : S4x2048x3.Slices ![0, 0, 1] S4x2048x1
  slices_S4x2048x3_S4x2048x1_0_0_2 : S4x2048x3.Slices ![0, 0, 2] S4x2048x1
  bcast_S_S4x2048x2048 : S_.BroadcastsInDim S4x2048x2048 (![] : Fin 0 → Fin S4x2048x2048.rank)
  bcast_S4x2048x2048_S4x2048x2048x1_0_1_2 : S4x2048x2048.BroadcastsInDim S4x2048x2048x1 (![0, 1, 2] : Fin 3 → Fin S4x2048x2048x1.rank)
  shapeCasts_S4x2048_S4x2048x1 : S4x2048.ShapeCasts S4x2048x1
  shapeCasts_S4x2048_S4x1x2048 : S4x2048.ShapeCasts S4x1x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  broadcasts_S128x1_S128x2048 : S128x1.Broadcasts S128x2048
  iota_S128x2048_d0_w32 : S128x2048.Iotas .tc 32 [0]
  iota_S128x2048_d1_w32 : S128x2048.Iotas .tc 32 [1]
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1x2048_S128x2048 : S1x2048.Broadcasts S128x2048
  shapeCasts_S128x2048_S1x128x2048 : S128x2048.ShapeCasts S1x128x2048
  gather_S4x2048_S4x2048x2048x1_S4x2048x2048_n_1_0_0_1_3_11_wf : GatherDims.WF S4x2048 S4x2048x2048x1 S4x2048x2048 [] [1] [0] [1] [0] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S4x2048x2048.size a
  hwx0_0 : ∀ i : grid0.Coords, EltTy.bits .f32 = 32 ∨ (Rect.block (s := S4x2048x2048) S1x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x2048.size a ≤ S4x2048x2048.size a
  hwx0_1 : ∀ i : grid0.Coords, EltTy.bits .f32 = 32 ∨ (Rect.block (s := S4x2048x2048) S1x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S4x2048x2048.size a
  hwx0_2 : ∀ i : grid0.Coords, EltTy.bits .f32 = 32 ∨ (Rect.block (s := S4x2048x2048) S1x128x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S4x2048x1.size a
  hwx0_3 : ∀ i : grid0.Coords, EltTy.bits .f32 = 32 ∨ (Rect.block (s := S4x2048x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1.size a ≤ S4x2048x1.size a
  hwx0_4 : ∀ i : grid0.Coords, EltTy.bits .f32 = 32 ∨ (Rect.block (s := S4x2048x1) S1x128x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x1.size a ≤ S4x2048x1.size a
  hwx0_5 : ∀ i : grid0.Coords, EltTy.bits .f32 = 32 ∨ (Rect.block (s := S4x2048x1) S1x128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S4x2048x1.size a
  hwx0_6 : ∀ i : grid0.Coords, EltTy.bits .f32 = 32 ∨ (Rect.block (s := S4x2048x1) S1x128x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x2048.size a ≤ S4x1x2048.size a
  hwx0_7 : ∀ i : grid0.Coords, EltTy.bits .f32 = 32 ∨ (Rect.block (s := S4x1x2048) S1x1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x128x2048.size a ≤ S4x2048x2048.size a
  hwx0_8 : ∀ i : grid0.Coords, EltTy.bits .f32 = 32 ∨ (Rect.block (s := S4x2048x2048) S1x128x2048.size (cc0_transform_8 i) (hinb0_8 i)).WholeWords (EltTy.packing .f32)

variable [Facts₀]

def gather_S4x2048_S4x2048x2048x1_S4x2048x2048_n_1_0_0_1_3_11 : GatherDims S4x2048 S4x2048x2048x1 S4x2048x2048 where
  offsetDims := []
  collapsedSliceDims := [1]
  operandBatchingDims := [0]
  startIndicesBatchingDims := [0]
  startIndexMap := [1]
  indexVectorDim := 3
  sliceSizes := ![1, 1]
  wf := gather_S4x2048_S4x2048x2048x1_S4x2048x2048_n_1_0_0_1_3_11_wf

abbrev win0_0 : Pipeline.Window sig grid0 :=
  Pipeline.Window.ofSpec (Memref.whole main_v12) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v26) S1x128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v30) S1x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v31) S1x128x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v32) S1x128x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v28) S1x128x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v29) S1x1x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v33) S1x128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x3 : Shape := ⟨3, ![4, 2048, 3]⟩
abbrev S4x2048x2048 : Shape := ⟨3, ![4, 2048, 2048]⟩
abbrev S4x2048 : Shape := ⟨2, ![4, 2048]⟩
abbrev S4 : Shape := ⟨1, ![4]⟩
abbrev S4x1x1 : Shape := ⟨3, ![4, 1, 1]⟩
abbrev S_ : Shape := ⟨0, ![]⟩
abbrev S4x2048x2048x1 : Shape := ⟨4, ![4, 2048, 2048, 1]⟩
abbrev S4x2048x2048x2 : Shape := ⟨4, ![4, 2048, 2048, 2]⟩
abbrev S4x2048x2048x3 : Shape := ⟨4, ![4, 2048, 2048, 3]⟩
abbrev S4x2048x1x3 : Shape := ⟨4, ![4, 2048, 1, 3]⟩
abbrev S4x2048x1 : Shape := ⟨3, ![4, 2048, 1]⟩
abbrev S4x1x2048 : Shape := ⟨3, ![4, 1, 2048]⟩
abbrev S2048x2048 : Shape := ⟨2, ![2048, 2048]⟩
abbrev S1x2048x2048 : Shape := ⟨3, ![1, 2048, 2048]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x2048x2048, .i32⟩
  | .hbm, ⟨2, _⟩ => ⟨S4x2048, .i1⟩
  | .hbm, ⟨3, _⟩ => ⟨S4, .i32⟩
  | .hbm, ⟨4, _⟩ => ⟨S4x1x1, .i32⟩
  | .hbm, ⟨5, _⟩ => ⟨S_, .i32⟩
  | .hbm, ⟨6, _⟩ => ⟨S4x1x1, .i32⟩
  | .hbm, ⟨7, _⟩ => ⟨S4x1x1, .i1⟩
  | .hbm, ⟨8, _⟩ => ⟨S_, .i32⟩
  | .hbm, ⟨9, _⟩ => ⟨S4x1x1, .i32⟩
  | .hbm, ⟨10, _⟩ => ⟨S4x1x1, .i32⟩
  | .hbm, ⟨11, _⟩ => ⟨S4x1x1, .i32⟩
  | .hbm, ⟨12, _⟩ => ⟨S_, .i32⟩
  | .hbm, ⟨13, _⟩ => ⟨S4x2048x2048, .i32⟩
  | .hbm, ⟨14, _⟩ => ⟨S4x2048x2048, .i1⟩
  | .hbm, ⟨15, _⟩ => ⟨S_, .i32⟩
  | .hbm, ⟨16, _⟩ => ⟨S4x2048x2048, .i32⟩
  | .hbm, ⟨17, _⟩ => ⟨S4x2048x2048, .i32⟩
  | .hbm, ⟨18, _⟩ => ⟨S4x2048x2048, .i32⟩
  | .hbm, ⟨19, _⟩ => ⟨S4x2048x2048, .i32⟩
  | .hbm, ⟨20, _⟩ => ⟨S4x2048x2048x1, .i32⟩
  | .hbm, ⟨21, _⟩ => ⟨S4x2048x2048x1, .i32⟩
  | .hbm, ⟨22, _⟩ => ⟨S4x2048x2048x2, .i32⟩
  | .hbm, ⟨23, _⟩ => ⟨S4x2048x2048x3, .f32⟩
  | .hbm, ⟨24, _⟩ => ⟨S4x2048x1x3, .f32⟩
  | .hbm, ⟨25, _⟩ => ⟨S4x2048x2048x3, .f32⟩
  | .hbm, ⟨26, _⟩ => ⟨S4x2048x2048x3, .f32⟩
  | .hbm, ⟨27, _⟩ => ⟨S4x2048x2048x3, .f32⟩
  | .hbm, ⟨28, _⟩ => ⟨S_, .f32⟩
  | .hbm, ⟨29, _⟩ => ⟨S4x2048x2048, .f32⟩
  | .hbm, ⟨30, _⟩ => ⟨S_, .f32⟩
  | .hbm, ⟨31, _⟩ => ⟨S4x2048x2048, .f32⟩
  | .hbm, ⟨32, _⟩ => ⟨S4x2048x2048, .i1⟩
  | .hbm, ⟨33, _⟩ => ⟨S_, .f32⟩
  | .hbm, ⟨34, _⟩ => ⟨S_, .f32⟩
  | .hbm, ⟨35, _⟩ => ⟨S4x2048x2048, .f32⟩
  | .hbm, ⟨36, _⟩ => ⟨S4x2048x2048, .f32⟩
  | .hbm, ⟨37, _⟩ => ⟨S4x2048x2048, .f32⟩
  | .hbm, ⟨38, _⟩ => ⟨S_, .f32⟩
  | .hbm, ⟨39, _⟩ => ⟨S4x2048x2048, .f32⟩
  | .hbm, ⟨40, _⟩ => ⟨S4x2048x2048, .i1⟩
  | .hbm, ⟨41, _⟩ => ⟨S_, .f32⟩
  | .hbm, ⟨42, _⟩ => ⟨S_, .f32⟩
  | .hbm, ⟨43, _⟩ => ⟨S4x2048x2048, .f32⟩
  | .hbm, ⟨44, _⟩ => ⟨S4x2048x2048, .f32⟩
  | .hbm, ⟨45, _⟩ => ⟨S_, .f32⟩
  | .hbm, ⟨46, _⟩ => ⟨S4x2048x2048, .f32⟩
  | .hbm, ⟨47, _⟩ => ⟨S4x2048x2048, .f32⟩
  | .hbm, ⟨48, _⟩ => ⟨S_, .f32⟩
  | .hbm, ⟨49, _⟩ => ⟨S4x2048x2048, .f32⟩
  | .hbm, ⟨50, _⟩ => ⟨S4x2048x2048, .f32⟩
  | .hbm, ⟨51, _⟩ => ⟨S4x2048x1, .i1⟩
  | .hbm, ⟨52, _⟩ => ⟨S4x1x2048, .i1⟩
  | .hbm, ⟨53, _⟩ => ⟨S4x2048x2048, .i1⟩
  | .hbm, ⟨54, _⟩ => ⟨S4x2048x2048, .i1⟩
  | .hbm, ⟨55, _⟩ => ⟨S4x2048x2048, .i1⟩
  | .hbm, ⟨56, _⟩ => ⟨S2048x2048, .i32⟩
  | .hbm, ⟨57, _⟩ => ⟨S2048x2048, .i32⟩
  | .hbm, ⟨58, _⟩ => ⟨S_, .i32⟩
  | .hbm, ⟨59, _⟩ => ⟨S2048x2048, .i32⟩
  | .hbm, ⟨60, _⟩ => ⟨S2048x2048, .i32⟩
  | .hbm, ⟨61, _⟩ => ⟨S2048x2048, .i1⟩
  | .hbm, ⟨62, _⟩ => ⟨S1x2048x2048, .i1⟩
  | .hbm, ⟨63, _⟩ => ⟨S_, .f32⟩
  | .hbm, ⟨64, _⟩ => ⟨S_, .f32⟩
  | .hbm, ⟨65, _⟩ => ⟨S4x2048x2048, .i1⟩
  | .hbm, ⟨66, _⟩ => ⟨S4x2048x2048, .f32⟩
  | .hbm, ⟨67, _⟩ => ⟨S4x2048x2048, .f32⟩
  | .hbm, ⟨68, _⟩ => ⟨S_, .f32⟩
  | .hbm, ⟨69, _⟩ => ⟨S_, .f32⟩
  | .hbm, ⟨70, _⟩ => ⟨S4x2048x2048, .f32⟩
  | .hbm, ⟨71, _⟩ => ⟨S4x2048x2048, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_c_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_c_9 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v44 : Ref sig .tc := ⟨.hbm, 67, rfl⟩
abbrev main_cst_11 : Ref sig .tc := ⟨.hbm, 68, rfl⟩
abbrev main_call3_v0 : Ref sig .tc := ⟨.hbm, 69, rfl⟩
abbrev main_call3_v1 : Ref sig .tc := ⟨.hbm, 70, rfl⟩
abbrev main_v45 : Ref sig .tc := ⟨.hbm, 71, rfl⟩

abbrev nD : Nat := 1
abbrev τ : Topo := Topo.v7x

variable {F : FTy → Type} [FloatOps F]

class Facts₀ : Prop where
  bcast_S4_S4x1x1_0 : S4.BroadcastsInDim S4x1x1 (![0] : Fin 1 → Fin S4x1x1.rank)
  bcast_S_S4x1x1 : S_.BroadcastsInDim S4x1x1 (![] : Fin 0 → Fin S4x1x1.rank)
  bcast_S_S4x2048x2048 : S_.BroadcastsInDim S4x2048x2048 (![] : Fin 0 → Fin S4x2048x2048.rank)
  bcast_S4x1x1_S4x2048x2048_0_1_2 : S4x1x1.BroadcastsInDim S4x2048x2048 (![0, 1, 2] : Fin 3 → Fin S4x2048x2048.rank)
  bcast_S4x2048x2048_S4x2048x2048x1_0_1_2 : S4x2048x2048.BroadcastsInDim S4x2048x2048x1 (![0, 1, 2] : Fin 3 → Fin S4x2048x2048x1.rank)
  concatenates_S4x2048x2048x1_S4x2048x2048x1_S4x2048x2048x2_d3 : Shape.Concatenates [S4x2048x2048x1, S4x2048x2048x1] S4x2048x2048x2 3
  bcast_S4x2048x3_S4x2048x1x3_0_1_3 : S4x2048x3.BroadcastsInDim S4x2048x1x3 (![0, 1, 3] : Fin 3 → Fin S4x2048x1x3.rank)
  bcast_S4x2048x1x3_S4x2048x2048x3_0_1_2_3 : S4x2048x1x3.BroadcastsInDim S4x2048x2048x3 (![0, 1, 2, 3] : Fin 4 → Fin S4x2048x2048x3.rank)
  reducesTo_S4x2048x2048x3_S4x2048x2048_d3 : S4x2048x2048x3.ReducesTo [3] S4x2048x2048
  h_S_ : 0 < S_.numel
  bcast_S4x2048_S4x2048x1_0_1 : S4x2048.BroadcastsInDim S4x2048x1 (![0, 1] : Fin 2 → Fin S4x2048x1.rank)
  bcast_S4x2048_S4x1x2048_0_2 : S4x2048.BroadcastsInDim S4x1x2048 (![0, 2] : Fin 2 → Fin S4x1x2048.rank)
  bcast_S4x2048x1_S4x2048x2048_0_1_2 : S4x2048x1.BroadcastsInDim S4x2048x2048 (![0, 1, 2] : Fin 3 → Fin S4x2048x2048.rank)
  bcast_S4x1x2048_S4x2048x2048_0_1_2 : S4x1x2048.BroadcastsInDim S4x2048x2048 (![0, 1, 2] : Fin 3 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  gather_S4x2048x3_S4x2048x2048x2_S4x2048x2048x3_3_01_n_n_01_3_113_wf : GatherDims.WF S4x2048x3 S4x2048x2048x2 S4x2048x2048x3 [3] [0, 1] [] [0, 1] [] 3 ![1, 1, 3]

variable [Facts₀]

def gather_S4x2048x3_S4x2048x2048x2_S4x2048x2048x3_3_01_n_n_01_3_113 : GatherDims S4x2048x3 S4x2048x2048x2 S4x2048x2048x3 where
  offsetDims := [3]
  collapsedSliceDims := [0, 1]
  operandBatchingDims := []
  startIndicesBatchingDims := []
  startIndexMap := [0, 1]
  indexVectorDim := 3
  sliceSizes := ![1, 1, 3]
  wf := gather_S4x2048x3_S4x2048x2048x2_S4x2048x2048x3_3_01_n_n_01_3_113_wf

class Facts : Prop extends Facts₀ where

variable [Facts]
-- ==== Proof.BlockIndex.lean ====
/-
  The output window's blocks: which array rows a grid point writes.

  The grid has 4 × 16 points. Point `t`'s output block index is `(b, τ, 0)`: the batch, the block of 128 rows, and the
  whole last axis; the body's `program_id(1)` is `τ`. So position `(u, p, q)` of the `[1, 128, 2048]` block is array entry
  `(b, 128 τ + p, q)`. These facts about the printed index map are decided once over the 64 points.
-/
import proofs.«148944_j42941083025444_1_alg».proof.Proof.ValueIdeal
import Idealize.ShloMosaic.PureOps.Ideal
import Idealize.ShloMosaic.Lib.ValueIdx

noncomputable section

namespace Cert.AtomDist.Blocks

open Cert.KernelIdeal Cert.KernelIdeal.Gen Cert.KernelIdeal.GenP Cert.KernelIdeal.ValueP
open Idealize.ShloMosaic Idealize.ShloMosaic.TcCoe Idealize.SL.Sem Idealize.ShloMosaic.ValueIdx

theorem hz3 : (![0, 0, 0] : Fin 3 → Nat) = fun _ => 0 := funext fun a => by fin_cases a <;> rfl

/-- The output's block index: the last axis is not tiled, the first two are within the grid's extents, and the body's
    `program_id(1)` is the second. -/
theorem idx8 : ∀ t : Fin cfg0.N, win0_8.index t (2 : Fin 3) = 0 ∧ win0_8.index t (0 : Fin 3) < 4
    ∧ win0_8.index t (1 : Fin 3) < 16 ∧ ((grid0.coords t) (1 : Fin 2)).val = win0_8.index t (1 : Fin 3) :=
  (by decide +kernel : ∀ t : Fin grid0.N, _)

/-- Every pair (batch, row block) is some point's output block. -/
theorem idx_onto8 : ∀ (q0 : Fin 4) (q1 : Fin 16), ∃ t : Fin cfg0.N, win0_8.index t = ![q0.val, q1.val, 0] :=
  (by decide +kernel : ∀ (q0 : Fin 4) (q1 : Fin 16), ∃ t : Fin grid0.N, win0_8.index t = ![q0.val, q1.val, 0])

/-- The batch of point `t`, and the array row of position `p` of its block. -/
def Bf (t : Fin cfg0.N) : Fin 4 := ⟨win0_8.index t (0 : Fin 3), (idx8 t).2.1⟩
def If (t : Fin cfg0.N) (p : Fin 128) : Fin 2048 :=
  ⟨win0_8.index t (1 : Fin 3) * 128 + p.val, by have := (idx8 t).2.2.1; have := p.isLt; omega⟩

/-- Where a position of the output block sits in the output array: a block's coordinate on each axis is the block
    index times the block's extent plus the position inside the block. -/
theorem emb8 (t : Fin cfg0.N) (u : Fin 1) (p : Fin 128) (q : Fin 2048) :
    (((cfg0.win 8).blk t).view.emb (ix3 u p q) : S4x2048x2048.Idx) = ix3 (Bf t) (If t p) q := by
  obtain ⟨h2, hB, hT, -⟩ := idx8 t
  funext a; apply Fin.ext
  match a with
  | ⟨0, _⟩ => show win0_8.index t (0 : Fin 3) * 1 + 1 * u.val = win0_8.index t (0 : Fin 3); have := u.isLt; omega
  | ⟨1, _⟩ => show win0_8.index t (1 : Fin 3) * 128 + 1 * p.val = win0_8.index t (1 : Fin 3) * 128 + p.val; omega
  | ⟨2, _⟩ => show win0_8.index t (2 : Fin 3) * 2048 + 1 * q.val = q.val; omega

end Cert.AtomDist.Blocks

end
-- ==== Proof.BlockTables.lean ====
/- A table of cases: for each of the eight input windows, the three lemmas whose one hand-written instance (for the
   output window) is in BlockIndex.lean — the window's block index against the output window's, decided over the 64
   grid points; where a position of the window's block sits in its array; the block read there as an array entry. -/
import proofs.«148944_j42941083025444_1_alg».proof.Proof.BlockIndex

noncomputable section

namespace Cert.AtomDist.Blocks

open Cert.KernelIdeal Cert.KernelIdeal.Gen Cert.KernelIdeal.GenP Cert.KernelIdeal.ValueP
open Idealize.ShloMosaic Idealize.ShloMosaic.TcCoe Idealize.SL.Sem Idealize.ShloMosaic.ValueIdx

variable (m : (ℓ : Loc nD τ sig) → Buf (Elt Ideal) ℓ)

/-- Window 0 moves with the output's block on the first two axes and is not tiled on the last. -/
theorem idx0 : ∀ t : Fin cfg0.N, win0_0.index t (0 : Fin 3) = win0_8.index t (0 : Fin 3)
    ∧ win0_0.index t (1 : Fin 3) = win0_8.index t (1 : Fin 3) ∧ win0_0.index t (2 : Fin 3) = 0 :=
  (by decide +kernel : ∀ t : Fin grid0.N, _)
/-- Where a position of window 0's block sits in its array. -/
theorem emb0 (t : Fin cfg0.N) (u : Fin 1) (p : Fin 128) (q : Fin 2048) :
    (((cfg0.win 0).blk t).view.emb (ix3 u p q) : S4x2048x2048.Idx) = ix3 (Bf t) (If t p) q := by
  obtain ⟨e0, e1, e2⟩ := idx0 t
  obtain ⟨h2, hB, hT, -⟩ := idx8 t
  funext a; apply Fin.ext
  match a with
  | ⟨0, _⟩ => show win0_0.index t (0 : Fin 3) * 1 + 1 * u.val = win0_8.index t (0 : Fin 3); have := u.isLt; omega
  | ⟨1, _⟩ => show win0_0.index t (1 : Fin 3) * 128 + 1 * p.val = win0_8.index t (1 : Fin 3) * 128 + p.val; omega
  | ⟨2, _⟩ => show win0_0.index t (2 : Fin 3) * 2048 + 1 * q.val = q.val; omega
/-- What the body loads from window 0, as an entry of the staged array. -/
theorem read0 (c : Dev nD) (t : Fin cfg0.N) (p : Fin 128) (q : Fin 2048) :
    iblk m c 0 t (ix3 (0 : Fin 1) p q) = V m c main_v12 (ix3 (Bf t) (If t p) q) := by
  show V m c main_v12 (((cfg0.win 0).blk t).view.emb (ix3 (0 : Fin 1) p q)) = _
  rw [emb0]

/-- Window 1 moves with the output's block on the first two axes and is not tiled on the last. -/
theorem idx1 : ∀ t : Fin cfg0.N, win0_1.index t (0 : Fin 3) = win0_8.index t (0 : Fin 3)
    ∧ win0_1.index t (1 : Fin 3) = win0_8.index t (1 : Fin 3) ∧ win0_1.index t (2 : Fin 3) = 0 :=
  (by decide +kernel : ∀ t : Fin grid0.N, _)
/-- Where a position of window 1's block sits in its array. -/
theorem emb1 (t : Fin cfg0.N) (u : Fin 1) (p : Fin 128) (q : Fin 2048) :
    (((cfg0.win 1).blk t).view.emb (ix3 u p q) : S4x2048x2048.Idx) = ix3 (Bf t) (If t p) q := by
  obtain ⟨e0, e1, e2⟩ := idx1 t
  obtain ⟨h2, hB, hT, -⟩ := idx8 t
  funext a; apply Fin.ext
  match a with
  | ⟨0, _⟩ => show win0_1.index t (0 : Fin 3) * 1 + 1 * u.val = win0_8.index t (0 : Fin 3); have := u.isLt; omega
  | ⟨1, _⟩ => show win0_1.index t (1 : Fin 3) * 128 + 1 * p.val = win0_8.index t (1 : Fin 3) * 128 + p.val; omega
  | ⟨2, _⟩ => show win0_1.index t (2 : Fin 3) * 2048 + 1 * q.val = q.val; omega
/-- What the body loads from window 1, as an entry of the staged array. -/
theorem read1 (c : Dev nD) (t : Fin cfg0.N) (p : Fin 128) (q : Fin 2048) :
    iblk m c 1 t (ix3 (0 : Fin 1) p q) = V m c main_v19 (ix3 (Bf t) (If t p) q) := by
  show V m c main_v19 (((cfg0.win 1).blk t).view.emb (ix3 (0 : Fin 1) p q)) = _
  rw [emb1]

/-- Window 2 moves with the output's block on the first two axes and is not tiled on the last. -/
theorem idx2 : ∀ t : Fin cfg0.N, win0_2.index t (0 : Fin 3) = win0_8.index t (0 : Fin 3)
    ∧ win0_2.index t (1 : Fin 3) = win0_8.index t (1 : Fin 3) ∧ win0_2.index t (2 : Fin 3) = 0 :=
  (by decide +kernel : ∀ t : Fin grid0.N, _)
/-- Where a position of window 2's block sits in its array. -/
theorem emb2 (t : Fin cfg0.N) (u : Fin 1) (p : Fin 128) (q : Fin 2048) :
    (((cfg0.win 2).blk t).view.emb (ix3 u p q) : S4x2048x2048.Idx) = ix3 (Bf t) (If t p) q := by
  obtain ⟨e0, e1, e2⟩ := idx2 t
  obtain ⟨h2, hB, hT, -⟩ := idx8 t
  funext a; apply Fin.ext
  match a with
  | ⟨0, _⟩ => show win0_2.index t (0 : Fin 3) * 1 + 1 * u.val = win0_8.index t (0 : Fin 3); have := u.isLt; omega
  | ⟨1, _⟩ => show win0_2.index t (1 : Fin 3) * 128 + 1 * p.val = win0_8.index t (1 : Fin 3) * 128 + p.val; omega
  | ⟨2, _⟩ => show win0_2.index t (2 : Fin 3) * 2048 + 1 * q.val = q.val; omega
/-- What the body loads from window 2, as an entry of the staged array. -/
theorem read2 (c : Dev nD) (t : Fin cfg0.N) (p : Fin 128) (q : Fin 2048) :
    iblk m c 2 t (ix3 (0 : Fin 1) p q) = V m c main_v26 (ix3 (Bf t) (If t p) q) := by
  show V m c main_v26 (((cfg0.win 2).blk t).view.emb (ix3 (0 : Fin 1) p q)) = _
  rw [emb2]

/-- Window 3 moves with the output's block on the first two axes and is not tiled on the last. -/
theorem idx3 : ∀ t : Fin cfg0.N, win0_3.index t (0 : Fin 3) = win0_8.index t (0 : Fin 3)
    ∧ win0_3.index t (1 : Fin 3) = win0_8.index t (1 : Fin 3) ∧ win0_3.index t (2 : Fin 3) = 0 :=
  (by decide +kernel : ∀ t : Fin grid0.N, _)
/-- Where a position of window 3's block sits in its array. -/
theorem emb3 (t : Fin cfg0.N) (u : Fin 1) (p : Fin 128) (z : Fin 1) :
    (((cfg0.win 3).blk t).view.emb (ix3 u p z) : S4x2048x1.Idx) = ix3 (Bf t) (If t p) (0 : Fin 1) := by
  obtain ⟨e0, e1, e2⟩ := idx3 t
  obtain ⟨h2, hB, hT, -⟩ := idx8 t
  funext a; apply Fin.ext
  match a with
  | ⟨0, _⟩ => show win0_3.index t (0 : Fin 3) * 1 + 1 * u.val = win0_8.index t (0 : Fin 3); have := u.isLt; omega
  | ⟨1, _⟩ => show win0_3.index t (1 : Fin 3) * 128 + 1 * p.val = win0_8.index t (1 : Fin 3) * 128 + p.val; omega
  | ⟨2, _⟩ => show win0_3.index t (2 : Fin 3) * 1 + 1 * z.val = 0; have := z.isLt; omega
/-- What the body loads from window 3, as an entry of the staged array. -/
theorem read3 (c : Dev nD) (t : Fin cfg0.N) (p : Fin 128) :
    iblk m c 3 t (ix3 (0 : Fin 1) p (0 : Fin 1)) = V m c main_v30 (ix3 (Bf t) (If t p) (0 : Fin 1)) := by
  show V m c main_v30 (((cfg0.win 3).blk t).view.emb (ix3 (0 : Fin 1) p (0 : Fin 1))) = _
  rw [emb3]

/-- Window 4 moves with the output's block on the first two axes and is not tiled on the last. -/
theorem idx4 : ∀ t : Fin cfg0.N, win0_4.index t (0 : Fin 3) = win0_8.index t (0 : Fin 3)
    ∧ win0_4.index t (1 : Fin 3) = win0_8.index t (1 : Fin 3) ∧ win0_4.index t (2 : Fin 3) = 0 :=
  (by decide +kernel : ∀ t : Fin grid0.N, _)
/-- Where a position of window 4's block sits in its array. -/
theorem emb4 (t : Fin cfg0.N) (u : Fin 1) (p : Fin 128) (z : Fin 1) :
    (((cfg0.win 4).blk t).view.emb (ix3 u p z) : S4x2048x1.Idx) = ix3 (Bf t) (If t p) (0 : Fin 1) := by
  obtain ⟨e0, e1, e2⟩ := idx4 t
  obtain ⟨h2, hB, hT, -⟩ := idx8 t
  funext a; apply Fin.ext
  match a with
  | ⟨0, _⟩ => show win0_4.index t (0 : Fin 3) * 1 + 1 * u.val = win0_8.index t (0 : Fin 3); have := u.isLt; omega
  | ⟨1, _⟩ => show win0_4.index t (1 : Fin 3) * 128 + 1 * p.val = win0_8.index t (1 : Fin 3) * 128 + p.val; omega
  | ⟨2, _⟩ => show win0_4.index t (2 : Fin 3) * 1 + 1 * z.val = 0; have := z.isLt; omega
/-- What the body loads from window 4, as an entry of the staged array. -/
theorem read4 (c : Dev nD) (t : Fin cfg0.N) (p : Fin 128) :
    iblk m c 4 t (ix3 (0 : Fin 1) p (0 : Fin 1)) = V m c main_v31 (ix3 (Bf t) (If t p) (0 : Fin 1)) := by
  show V m c main_v31 (((cfg0.win 4).blk t).view.emb (ix3 (0 : Fin 1) p (0 : Fin 1))) = _
  rw [emb4]

/-- Window 5 moves with the output's block on the first two axes and is not tiled on the last. -/
theorem idx5 : ∀ t : Fin cfg0.N, win0_5.index t (0 : Fin 3) = win0_8.index t (0 : Fin 3)
    ∧ win0_5.index t (1 : Fin 3) = win0_8.index t (1 : Fin 3) ∧ win0_5.index t (2 : Fin 3) = 0 :=
  (by decide +kernel : ∀ t : Fin grid0.N, _)
/-- Where a position of window 5's block sits in its array. -/
theorem emb5 (t : Fin cfg0.N) (u : Fin 1) (p : Fin 128) (z : Fin 1) :
    (((cfg0.win 5).blk t).view.emb (ix3 u p z) : S4x2048x1.Idx) = ix3 (Bf t) (If t p) (0 : Fin 1) := by
  obtain ⟨e0, e1, e2⟩ := idx5 t
  obtain ⟨h2, hB, hT, -⟩ := idx8 t
  funext a; apply Fin.ext
  match a with
  | ⟨0, _⟩ => show win0_5.index t (0 : Fin 3) * 1 + 1 * u.val = win0_8.index t (0 : Fin 3); have := u.isLt; omega
  | ⟨1, _⟩ => show win0_5.index t (1 : Fin 3) * 128 + 1 * p.val = win0_8.index t (1 : Fin 3) * 128 + p.val; omega
  | ⟨2, _⟩ => show win0_5.index t (2 : Fin 3) * 1 + 1 * z.val = 0; have := z.isLt; omega
/-- What the body loads from window 5, as an entry of the staged array. -/
theorem read5 (c : Dev nD) (t : Fin cfg0.N) (p : Fin 128) :
    iblk m c 5 t (ix3 (0 : Fin 1) p (0 : Fin 1)) = V m c main_v32 (ix3 (Bf t) (If t p) (0 : Fin 1)) := by
  show V m c main_v32 (((cfg0.win 5).blk t).view.emb (ix3 (0 : Fin 1) p (0 : Fin 1))) = _
  rw [emb5]

/-- Window 6 moves with the output's block on the first two axes and is not tiled on the last. -/
theorem idx6 : ∀ t : Fin cfg0.N, win0_6.index t (0 : Fin 3) = win0_8.index t (0 : Fin 3)
    ∧ win0_6.index t (1 : Fin 3) = win0_8.index t (1 : Fin 3) ∧ win0_6.index t (2 : Fin 3) = 0 :=
  (by decide +kernel : ∀ t : Fin grid0.N, _)
/-- Where a position of window 6's block sits in its array. -/
theorem emb6 (t : Fin cfg0.N) (u : Fin 1) (p : Fin 128) (z : Fin 1) :
    (((cfg0.win 6).blk t).view.emb (ix3 u p z) : S4x2048x1.Idx) = ix3 (Bf t) (If t p) (0 : Fin 1) := by
  obtain ⟨e0, e1, e2⟩ := idx6 t
  obtain ⟨h2, hB, hT, -⟩ := idx8 t
  funext a; apply Fin.ext
  match a with
  | ⟨0, _⟩ => show win0_6.index t (0 : Fin 3) * 1 + 1 * u.val = win0_8.index t (0 : Fin 3); have := u.isLt; omega
  | ⟨1, _⟩ => show win0_6.index t (1 : Fin 3) * 128 + 1 * p.val = win0_8.index t (1 : Fin 3) * 128 + p.val; omega
  | ⟨2, _⟩ => show win0_6.index t (2 : Fin 3) * 1 + 1 * z.val = 0; have := z.isLt; omega
/-- What the body loads from window 6, as an entry of the staged array. -/
theorem read6 (c : Dev nD) (t : Fin cfg0.N) (p : Fin 128) :
    iblk m c 6 t (ix3 (0 : Fin 1) p (0 : Fin 1)) = V m c main_v28 (ix3 (Bf t) (If t p) (0 : Fin 1)) := by
  show V m c main_v28 (((cfg0.win 6).blk t).view.emb (ix3 (0 : Fin 1) p (0 : Fin 1))) = _
  rw [emb6]

/-- The mask row moves with the output's batch only. -/
theorem idx7 : ∀ t : Fin cfg0.N, win0_7.index t (0 : Fin 3) = win0_8.index t (0 : Fin 3)
    ∧ win0_7.index t (1 : Fin 3) = 0 ∧ win0_7.index t (2 : Fin 3) = 0 :=
  (by decide +kernel : ∀ t : Fin grid0.N, _)
/-- Where a position of window 7's block sits in its array. -/
theorem emb7 (t : Fin cfg0.N) (u : Fin 1) (z : Fin 1) (q : Fin 2048) :
    (((cfg0.win 7).blk t).view.emb (ix3 u z q) : S4x1x2048.Idx) = ix3 (Bf t) (0 : Fin 1) q := by
  obtain ⟨e0, e1, e2⟩ := idx7 t
  obtain ⟨h2, hB, hT, -⟩ := idx8 t
  funext a; apply Fin.ext
  match a with
  | ⟨0, _⟩ => show win0_7.index t (0 : Fin 3) * 1 + 1 * u.val = win0_8.index t (0 : Fin 3); have := u.isLt; omega
  | ⟨1, _⟩ => show win0_7.index t (1 : Fin 3) * 1 + 1 * z.val = 0; have := z.isLt; omega
  | ⟨2, _⟩ => show win0_7.index t (2 : Fin 3) * 2048 + 1 * q.val = q.val; omega
/-- What the body loads from window 7, as an entry of the staged array. -/
theorem read7 (c : Dev nD) (t : Fin cfg0.N) (q : Fin 2048) :
    iblk m c 7 t (ix3 (0 : Fin 1) (0 : Fin 1) q) = V m c main_v29 (ix3 (Bf t) (0 : Fin 1) q) := by
  show V m c main_v29 (((cfg0.win 7).blk t).view.emb (ix3 (0 : Fin 1) (0 : Fin 1) q)) = _
  rw [emb7]

end Cert.AtomDist.Blocks

end
-- ==== Proof.Spec.lean ====
/-
  Inverse pairwise distances to gathered neighbours: the function both programs compute.

  For a batch `b`, a query atom `i` and a slot `j`, let `a` be the atom that the index word `neighbors[b, i, j]` names
  (a negative word wraps by the number of atoms; the result is read signed and clamped into the table). With
  `d² = Σₖ (pos[b, a, k] − pos[b, i, k])²` over the three coordinates, the entry is

      (if i = j then 0 else 1 / (dist + ε)) · mask[b, i] · mask[b, j],     dist = if d² > 0 then √(if d² > 0 then d² else 1) else 0,

  over the extended reals, `ε` the float literal both programs share and the mask bits read as `0` or `1`.

  One side multiplies by the product of the two mask values; the other selects on the AND of the two mask bits. On the
  extended reals `x · 1 = x` and `x · 0 = 0` for every `x`, infinities included, so the two agree with no finiteness
  assumption (`mask_mul_eq_select`). One side sums the three squares left to right; the other adds them to a zero
  initial value: addition on the extended reals is associative with `0` neutral (`zero_add_sum3`).
-/
import Idealize.ShloMosaic.Lib.ValueIdx
import Idealize.ShloMosaic.PureOps.Ideal.Laws

noncomputable section

namespace Cert.AtomDist

open Idealize.ShloMosaic Idealize.ShloMosaic.ValueIdx

/-- The float literals of the two programs, as extended reals: `0.0`, `1.0` and `ε` (the f32 nearest `1e-8`). -/
abbrev f0 : EReal := Ideal.ofBits .f32 0x00000000#32
abbrev f1 : EReal := Ideal.ofBits .f32 0x3F800000#32
abbrev fε : EReal := Ideal.ofBits .f32 0x322BCC77#32

/-- The squared distance from the three gathered coordinates `g` and the three own coordinates `s`. -/
def sqDist (gx gy gz sx sy sz : EReal) : EReal :=
  (gx - sx) * (gx - sx) + (gy - sy) * (gy - sy) + (gz - sz) * (gz - sz)

/-- `dist + ε` from the squared distance: the square root taken only of a positive square, `0` otherwise. -/
def denom (d2 : EReal) : EReal :=
  Scalar.select (Ideal.cmp .ogt d2 f0) (Ideal.sqrt (Scalar.select (Ideal.cmp .ogt d2 f0) d2 f1)) f0 + fε

/-- `1 / (dist + ε)` from the squared distance. -/
def invDist (d2 : EReal) : EReal := Ideal.div f1 (denom d2)

/-- One entry of the result: zero on the diagonal (bit `dg`), else the inverse distance; times the two mask values. -/
def entry (gx gy gz sx sy sz : EReal) (dg : BitVec 1) (rm cm : EReal) : EReal :=
  Scalar.select dg f0 (invDist (sqDist gx gy gz sx sy sz)) * (rm * cm)

/-- An index word with a negative value wrapped by the number of atoms. -/
def wrapIdx (n : BitVec 32) : BitVec 32 := Scalar.select (IntOp.cmpi .slt n 0#32) (IntOp.addi n 2048#32) n

/-- The atom an index word names: wrapped, read signed, clamped into `[0, 2047]`. -/
def atomOf (n : BitVec 32) : Fin 2048 := ⟨min (wrapIdx n).toInt.toNat (2048 - 1), by omega⟩

/-- A mask bit as the extended real `0` or `1`. -/
def maskVal (w : BitVec 1) : EReal := ((w.toNat : ℝ) : EReal)

/-- The diagonal bit: row and column numbers compared as 32-bit words. -/
def diagBit (i j : Fin 2048) : BitVec 1 := IntOp.cmpi .eq (BitVec.ofNat 32 i.val) (BitVec.ofNat 32 j.val)

/-- THE RESULT as one function of the three argument arrays, index by index. -/
def G (pos : (⟨3, ![4, 2048, 3]⟩ : Shape).Idx → EReal) (nbr : (⟨3, ![4, 2048, 2048]⟩ : Shape).Idx → BitVec 32)
    (msk : (⟨2, ![4, 2048]⟩ : Shape).Idx → BitVec 1) : (⟨3, ![4, 2048, 2048]⟩ : Shape).Idx → EReal := fun y =>
  let b : Fin 4 := ⟨(y 0).val, (y 0).isLt⟩
  let i : Fin 2048 := ⟨(y 1).val, (y 1).isLt⟩
  let j : Fin 2048 := ⟨(y 2).val, (y 2).isLt⟩
  let a : Fin 2048 := atomOf (nbr (ix3 b i j))
  entry (pos (ix3 b a (0 : Fin 3))) (pos (ix3 b a (1 : Fin 3))) (pos (ix3 b a (2 : Fin 3)))
    (pos (ix3 b i (0 : Fin 3))) (pos (ix3 b i (1 : Fin 3))) (pos (ix3 b i (2 : Fin 3)))
    (diagBit i j) (maskVal (msk (ix2 b i))) (maskVal (msk (ix2 b j)))

/-- The same result as a function of the eight arrays the kernel stages: the three gathered coordinate arrays
    `[4, 2048, 2048]`, the three own-coordinate columns and the row-mask column `[4, 2048, 1]`, and the column-mask row
    `[4, 1, 2048]`. -/
def H (gx gy gz : (⟨3, ![4, 2048, 2048]⟩ : Shape).Idx → EReal) (sx sy sz rm : (⟨3, ![4, 2048, 1]⟩ : Shape).Idx → EReal)
    (cm : (⟨3, ![4, 1, 2048]⟩ : Shape).Idx → EReal) : (⟨3, ![4, 2048, 2048]⟩ : Shape).Idx → EReal := fun y =>
  let b : Fin 4 := ⟨(y 0).val, (y 0).isLt⟩
  let i : Fin 2048 := ⟨(y 1).val, (y 1).isLt⟩
  let j : Fin 2048 := ⟨(y 2).val, (y 2).isLt⟩
  entry (gx (ix3 b i j)) (gy (ix3 b i j)) (gz (ix3 b i j))
    (sx (ix3 b i (0 : Fin 1))) (sy (ix3 b i (0 : Fin 1))) (sz (ix3 b i (0 : Fin 1)))
    (diagBit i j) (rm (ix3 b i (0 : Fin 1))) (cm (ix3 b (0 : Fin 1) j))

/-! ## The two laws that join the sides -/

/-- The literal `0.0` is the extended real zero. -/
theorem f0_eq : f0 = 0 := Ideal.ofBits_zero_f32

/-- Selecting on the AND of two mask bits, with zero otherwise, is multiplying by the two mask values. -/
theorem mask_mul_eq_select (p q : BitVec 1) (x : EReal) :
    Scalar.select (IntOp.andi p q) x f0 = x * (maskVal p * maskVal q) := by
  rw [f0_eq]
  rcases BitVec.eq_zero_or_eq_one p with rfl | rfl <;> rcases BitVec.eq_zero_or_eq_one q with rfl | rfl <;>
    simp [Scalar.select, IntOp.andi, maskVal]

/-- A zero initial value plus the three squares is the kernel's left-to-right sum. -/
theorem zero_add_sum3 (f : Fin 3 → EReal) : f0 + ∑ k : Fin 3, f k = f 0 + f 1 + f 2 := by
  rw [f0_eq, zero_add, Fin.sum_univ_three]

end Cert.AtomDist

end
-- ==== Proof.KernelCell.lean ====
/-
  The kernel body's arithmetic read at one position of a block.

  The body loads three `[1, 128, 2048]` blocks of gathered coordinates, three `[1, 128, 1]` columns of the query atoms'
  own coordinates, a `[1, 128, 1]` column and a `[1, 1, 2048]` row of mask values, and stores one `[1, 128, 2048]` block.
  At row `p`, column `q` of the block: the columns are broadcast along the lanes (`(p, q) ↦ (p, 0)`), the row along the
  sublanes (`(p, q) ↦ (0, q)`), every other operation is pointwise, and the diagonal test compares the word
  `p + 128 · (grid coordinate 1)` with the word `q`.
-/
import proofs.«148944_j42941083025444_1_alg».proof.Proof.Gen.KernelIdeal.Skeleton
import proofs.«148944_j42941083025444_1_alg».proof.Proof.Spec
import Idealize.ShloMosaic.Lib.ValueLayout
import Idealize.ShloMosaic.Lib.Pipeline.Value

noncomputable section

namespace Cert.AtomDist.Kern

open Cert.KernelIdeal Cert.KernelIdeal.Gen
open Idealize.ShloMosaic Idealize.ShloMosaic.TcCoe Idealize.ShloMosaic.ValueIdx
open Cert.AtomDist

/-- An `[a, 1]` column broadcast to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The row number of position `p` in the block of grid coordinate `ti`, as the body computes it in 32-bit words. -/
theorem rowWord (ti p : Nat) :
    IntOp.addi (BitVec.ofNat 32 p) (Scalar.muli (BitVec.ofNat 32 ti) 128#32) = BitVec.ofNat 32 (ti * 128 + p) := by
  show BitVec.ofNat 32 p + BitVec.ofNat 32 ti * 128#32 = _
  rw [show (128#32 : BitVec 32) = BitVec.ofNat 32 128 from rfl, ← BitVec.ofNat_mul, ← BitVec.ofNat_add, Nat.add_comm]

/-- The first part's value at `(p, q)`: `dist + ε` of the three differences between the gathered and the own coordinates. -/
theorem denom_apply (x0 x1 x2 : Vec Ideal S1x128x2048 .f32) (x3 x4 x5 : Vec Ideal S1x128x1 .f32) (p : Fin 128) (q : Fin 2048) :
    k0_pay2 (F := Ideal) x0 x1 x2 x3 x4 x5 (ix2 p q)
      = denom (sqDist (x0 (ix3 (0 : Fin 1) p q)) (x1 (ix3 (0 : Fin 1) p q)) (x2 (ix3 (0 : Fin 1) p q))
          (x3 (ix3 (0 : Fin 1) p (0 : Fin 1))) (x4 (ix3 (0 : Fin 1) p (0 : Fin 1))) (x5 (ix3 (0 : Fin 1) p (0 : Fin 1)))) := by
  have h0 := shapeCast_1ab_ab_apply x0 shapeCasts_S1x128x2048_S128x2048 p q
  have h1 := shapeCast_1ab_ab_apply x1 shapeCasts_S1x128x2048_S128x2048 p q
  have h2 := shapeCast_1ab_ab_apply x2 shapeCasts_S1x128x2048_S128x2048 p q
  have h3 := (broadcastTo_a1_ab_apply (shapeCast S128x1 x3 shapeCasts_S1x128x1_S128x1) broadcasts_S128x1_S128x2048 p q).trans
    (shapeCast_1ab_ab_apply x3 shapeCasts_S1x128x1_S128x1 p (0 : Fin 1))
  have h4 := (broadcastTo_a1_ab_apply (shapeCast S128x1 x4 shapeCasts_S1x128x1_S128x1) broadcasts_S128x1_S128x2048 p q).trans
    (shapeCast_1ab_ab_apply x4 shapeCasts_S1x128x1_S128x1 p (0 : Fin 1))
  have h5 := (broadcastTo_a1_ab_apply (shapeCast S128x1 x5 shapeCasts_S1x128x1_S128x1) broadcasts_S128x1_S128x2048 p q).trans
    (shapeCast_1ab_ab_apply x5 shapeCasts_S1x128x1_S128x1 p (0 : Fin 1))
  show denom (sqDist (shapeCast S128x2048 x0 shapeCasts_S1x128x2048_S128x2048 (ix2 p q))
      (shapeCast S128x2048 x1 shapeCasts_S1x128x2048_S128x2048 (ix2 p q))
      (shapeCast S128x2048 x2 shapeCasts_S1x128x2048_S128x2048 (ix2 p q))
      (broadcastTo S128x2048 (shapeCast S128x1 x3 shapeCasts_S1x128x1_S128x1) broadcasts_S128x1_S128x2048 (ix2 p q))
      (broadcastTo S128x2048 (shapeCast S128x1 x4 shapeCasts_S1x128x1_S128x1) broadcasts_S128x1_S128x2048 (ix2 p q))
      (broadcastTo S128x2048 (shapeCast S128x1 x5 shapeCasts_S1x128x1_S128x1) broadcasts_S128x1_S128x2048 (ix2 p q))) = _
  rw [h0, h1, h2, h3, h4, h5]

/-- The stored value at `(u, p, q)` of the block: zero where the row word equals the column word, else one over the
    first part's value; times the mask column at `p` and the mask row at `q`. -/
theorem stored_apply (i1 : BitVec 32) (v33 : FVec Ideal S128x2048 .f32) (x6 : Vec Ideal S1x128x1 .f32)
    (x7 : Vec Ideal S1x1x2048 .f32) (u : Fin 1) (p : Fin 128) (q : Fin 2048) :
    k0_pay1 (F := Ideal) i1 v33 (Scalar.ofBits .f32 0x3F800000#32) x6 x7 (ix3 u p q)
      = Scalar.select (IntOp.cmpi .eq (IntOp.addi (BitVec.ofNat 32 p.val) (Scalar.muli i1 128#32)) (BitVec.ofNat 32 q.val))
          f0 (Ideal.div f1 (v33 (ix2 p q)))
        * (x6 (ix3 (0 : Fin 1) p (0 : Fin 1)) * x7 (ix3 (0 : Fin 1) (0 : Fin 1) q)) := by
  unfold k0_pay1
  refine (shapeCast_ab_1ab_apply _ shapeCasts_S128x2048_S1x128x2048 u p q).trans ?_
  have h36 := iota_single_apply .tc S128x2048 32 0 iota_S128x2048_d0_w32 (ix2 p q)
  have h40 := iota_single_apply .tc S128x2048 32 1 iota_S128x2048_d1_w32 (ix2 p q)
  have h48 := (broadcastTo_a1_ab_apply (shapeCast S128x1 x6 shapeCasts_S1x128x1_S128x1) broadcasts_S128x1_S128x2048 p q).trans
    (shapeCast_1ab_ab_apply x6 shapeCasts_S1x128x1_S128x1 p (0 : Fin 1))
  have h49 := (broadcastTo_1b_ab_apply (shapeCast S1x2048 x7 shapeCasts_S1x1x2048_S1x2048) broadcasts_S1x2048_S128x2048 p q).trans
    (shapeCast_1ab_ab_apply x7 shapeCasts_S1x1x2048_S1x2048 (0 : Fin 1) q)
  show Scalar.select (IntOp.cmpi .eq (IntOp.addi (iota .tc S128x2048 32 [0] iota_S128x2048_d0_w32 (ix2 p q)) (Scalar.muli i1 128#32))
        (iota .tc S128x2048 32 [1] iota_S128x2048_d1_w32 (ix2 p q)))
      f0 (Ideal.div f1 (v33 (ix2 p q)))
      * (broadcastTo S128x2048 (shapeCast S128x1 x6 shapeCasts_S1x128x1_S128x1) broadcasts_S128x1_S128x2048 (ix2 p q)
        * broadcastTo S128x2048 (shapeCast S1x2048 x7 shapeCasts_S1x1x2048_S1x2048) broadcasts_S1x2048_S128x2048 (ix2 p q)) = _
  rw [h36, h40, h48, h49]

/-- THE STORED BLOCK at `(u, p, q)`, from the eight loaded blocks: the specification's entry of the six coordinates at
    `(p, q)` and `(p, 0)`, the body's diagonal bit, and the two mask values at `(p, 0)` and `(0, q)`. -/
theorem block_apply (i1 : BitVec 32) (x0 x1 x2 : Vec Ideal S1x128x2048 .f32) (x3 x4 x5 x6 : Vec Ideal S1x128x1 .f32)
    (x7 : Vec Ideal S1x1x2048 .f32) (u : Fin 1) (p : Fin 128) (q : Fin 2048) :
    k0_pay1 (F := Ideal) i1 (k0_pay2 (F := Ideal) x0 x1 x2 x3 x4 x5) (Scalar.ofBits .f32 0x3F800000#32) x6 x7 (ix3 u p q)
      = entry (x0 (ix3 (0 : Fin 1) p q)) (x1 (ix3 (0 : Fin 1) p q)) (x2 (ix3 (0 : Fin 1) p q))
          (x3 (ix3 (0 : Fin 1) p (0 : Fin 1))) (x4 (ix3 (0 : Fin 1) p (0 : Fin 1))) (x5 (ix3 (0 : Fin 1) p (0 : Fin 1)))
          (IntOp.cmpi .eq (IntOp.addi (BitVec.ofNat 32 p.val) (Scalar.muli i1 128#32)) (BitVec.ofNat 32 q.val))
          (x6 (ix3 (0 : Fin 1) p (0 : Fin 1))) (x7 (ix3 (0 : Fin 1) (0 : Fin 1) q)) := by
  rw [stored_apply, denom_apply]
  rfl

end Cert.AtomDist.Kern

end
-- ==== Proof.LibBatchGather.lean ====
/-
  Two shapes of `stablehlo.gather` read at an index, for any sizes.

  * The batched take: for a table `x : [B, N]` and integer indices `idx : [B, R, C, 1]`, the gather whose operand
    axis 0 is a batching axis paired with the indices' axis 0, whose operand axis 1 is collapsed and named by the
    start index map, and whose index vector is the indices' last axis. Result entry `(b, r, c)` is
    `x[b, clamp idx[b, r, c, 0]]`: the start index read signed and clamped into `[0, N − 1]`.

  * The row take by a pair: for a table `x : [B, N, K]` and indices `idx : [B', R, C, 2]`, the gather whose operand
    axes 0 and 1 are collapsed and named, in that order, by the two components of the start index, and whose operand
    axis 2 is the one offset axis. Result entry `(b, r, c, k)` is `x[clamp idx[b, r, c, 0], clamp idx[b, r, c, 1], k]`.

  Both are the operand-index formula of the gather (per operand axis: clamped start + batching coordinate + offset
  coordinate) evaluated at these literal dimension numbers.
-/
import Idealize.ShloMosaic.Lib.ValueIdx

namespace Idealize.ShloMosaic.BatchGather

open Idealize.ShloMosaic Idealize.ShloMosaic.ValueIdx

variable {α : Type}

/-! ## The batched take -/

/-- The dimension numbers of the batched take, for an operand `[B, N]`, start indices `[B, R, C, 1]`, result `[B, R, C]`. -/
abbrev takeB (B N R C : Nat)
    (wf : GatherDims.WF ⟨2, ![B, N]⟩ ⟨4, ![B, R, C, 1]⟩ ⟨3, ![B, R, C]⟩ [] [1] [0] [1] [0] 3 ![1, 1]) :
    GatherDims ⟨2, ![B, N]⟩ ⟨4, ![B, R, C, 1]⟩ ⟨3, ![B, R, C]⟩ where
  offsetDims := []
  collapsedSliceDims := [1]
  operandBatchingDims := [0]
  startIndicesBatchingDims := [0]
  startIndexMap := [1]
  indexVectorDim := 3
  sliceSizes := ![1, 1]
  wf := wf

/-- The start-indices index `[b, r, c, 0]` of result index `(b, r, c)`. -/
abbrev takeBIdx {B R C : Nat} (y : (⟨3, ![B, R, C]⟩ : Shape).Idx) : (⟨4, ![B, R, C, 1]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨0, Nat.one_pos⟩

/-- The batched take read at `(b, r, c)`: the table's row `b` at the start index `idx[b, r, c, 0]`, read signed and
    clamped into `[0, N − 1]`. -/
theorem takeB_apply {B N R C w : Nat} (hN : 0 < N)
    (wf : GatherDims.WF ⟨2, ![B, N]⟩ ⟨4, ![B, R, C, 1]⟩ ⟨3, ![B, R, C]⟩ [] [1] [0] [1] [0] 3 ![1, 1])
    (x : (⟨2, ![B, N]⟩ : Shape).Idx → α) (idx : IVec ⟨4, ![B, R, C, 1]⟩ w) (y : (⟨3, ![B, R, C]⟩ : Shape).Idx) :
    Host.gather (takeB B N R C wf) x idx y
      = x (ix2 ⟨(y 0).val, (y 0).isLt⟩ ⟨min (idx (takeBIdx y)).toInt.toNat (N - 1), by omega⟩) := by
  unfold Host.gather
  congr 1
  funext a
  refine Fin.ext ?_
  match a with
  | ⟨0, _⟩ =>
    show (takeB B N R C wf).start y idx 0 + (takeB B N R C wf).batchCoord y 0 + (takeB B N R C wf).offCoord y 0 = (y 0).val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ (takeB B N R C wf).operandBatchingDims from List.mem_singleton.mpr rfl)]
    rfl
  | ⟨1, _⟩ =>
    show (takeB B N R C wf).start y idx 1 + (takeB B N R C wf).batchCoord y 1 + (takeB B N R C wf).offCoord y 1
      = min (idx (takeBIdx y)).toInt.toNat (N - 1)
    rw [GatherDims.batchCoord_eq_zero _ _ _ (show (1 : Fin 2) ∉ ([0] : List (Fin 2)) by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeB B N R C wf).startIndexMap from List.mem_singleton.mpr rfl)]
    have hsi : (takeB B N R C wf).siIdx y ⟨List.idxOf (1 : Fin 2) (takeB B N R C wf).startIndexMap,
        List.idxOf_lt_length_iff.2 (List.mem_singleton.mpr rfl)⟩ = takeBIdx y := by
      funext b; refine Fin.ext ?_
      match b with
      | ⟨0, _⟩ => rfl
      | ⟨1, _⟩ => rfl
      | ⟨2, _⟩ => rfl
      | ⟨3, _⟩ => rfl
    rw [hsi]
    rfl

/-! ## The row take by a pair of indices -/

/-- The dimension numbers of the row take by a pair, for an operand `[B, N, K]`, start indices `[B', R, C, 2]`,
    result `[B', R, C, K]`. -/
abbrev takeP (B N K B' R C : Nat)
    (wf : GatherDims.WF ⟨3, ![B, N, K]⟩ ⟨4, ![B', R, C, 2]⟩ ⟨4, ![B', R, C, K]⟩ [3] [0, 1] [] [0, 1] [] 3 ![1, 1, K]) :
    GatherDims ⟨3, ![B, N, K]⟩ ⟨4, ![B', R, C, 2]⟩ ⟨4, ![B', R, C, K]⟩ where
  offsetDims := [3]
  collapsedSliceDims := [0, 1]
  operandBatchingDims := []
  startIndicesBatchingDims := []
  startIndexMap := [0, 1]
  indexVectorDim := 3
  sliceSizes := ![1, 1, K]
  wf := wf

/-- The start-indices index `[b, r, c, e]` of result index `(b, r, c, k)`, for component `e` of the start index. -/
abbrev takePIdx {B' R C K : Nat} (y : (⟨4, ![B', R, C, K]⟩ : Shape).Idx) (e : Fin 2) : (⟨4, ![B', R, C, 2]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => ⟨e.val, e.isLt⟩

/-- The row take by a pair read at `(b, r, c, k)`: the table at the two clamped components of the start index
    `idx[b, r, c, ·]`, column `k`. -/
theorem takeP_apply {B N K B' R C w : Nat} (hB : 0 < B) (hN : 0 < N)
    (wf : GatherDims.WF ⟨3, ![B, N, K]⟩ ⟨4, ![B', R, C, 2]⟩ ⟨4, ![B', R, C, K]⟩ [3] [0, 1] [] [0, 1] [] 3 ![1, 1, K])
    (x : (⟨3, ![B, N, K]⟩ : Shape).Idx → α) (idx : IVec ⟨4, ![B', R, C, 2]⟩ w) (y : (⟨4, ![B', R, C, K]⟩ : Shape).Idx) :
    Host.gather (takeP B N K B' R C wf) x idx y
      = x (ix3 ⟨min (idx (takePIdx y 0)).toInt.toNat (B - 1), by omega⟩
              ⟨min (idx (takePIdx y 1)).toInt.toNat (N - 1), by omega⟩ ⟨(y 3).val, (y 3).isLt⟩) := by
  unfold Host.gather
  congr 1
  funext a
  refine Fin.ext ?_
  match a with
  | ⟨0, _⟩ =>
    show (takeP B N K B' R C wf).start y idx 0 + (takeP B N K B' R C wf).batchCoord y 0 + (takeP B N K B' R C wf).offCoord y 0
      = min (idx (takePIdx y 0)).toInt.toNat (B - 1)
    rw [GatherDims.batchCoord_eq_zero _ _ _ List.not_mem_nil,
      GatherDims.offCoord_eq_zero _ _ _ (fun h => ((GatherDims.mem_sKept _ _).mp h).1 (show (0 : Fin 3) ∈ ([0, 1] : List (Fin 3)) by decide))]
    simp only [Nat.add_zero]
    unfold GatherDims.start
    rw [dif_pos (show (0 : Fin 3) ∈ (takeP B N K B' R C wf).startIndexMap from (show (0 : Fin 3) ∈ ([0, 1] : List (Fin 3)) by decide))]
    have hsi : (takeP B N K B' R C wf).siIdx y ⟨List.idxOf (0 : Fin 3) (takeP B N K B' R C wf).startIndexMap,
        List.idxOf_lt_length_iff.2 (show (0 : Fin 3) ∈ ([0, 1] : List (Fin 3)) by decide)⟩ = takePIdx y 0 := by
      funext b; refine Fin.ext ?_
      match b with
      | ⟨0, _⟩ => rfl
      | ⟨1, _⟩ => rfl
      | ⟨2, _⟩ => rfl
      | ⟨3, _⟩ => rfl
    rw [hsi]
    rfl
  | ⟨1, _⟩ =>
    show (takeP B N K B' R C wf).start y idx 1 + (takeP B N K B' R C wf).batchCoord y 1 + (takeP B N K B' R C wf).offCoord y 1
      = min (idx (takePIdx y 1)).toInt.toNat (N - 1)
    rw [GatherDims.batchCoord_eq_zero _ _ _ List.not_mem_nil,
      GatherDims.offCoord_eq_zero _ _ _ (fun h => ((GatherDims.mem_sKept _ _).mp h).1 (show (1 : Fin 3) ∈ ([0, 1] : List (Fin 3)) by decide))]
    simp only [Nat.add_zero]
    unfold GatherDims.start
    rw [dif_pos (show (1 : Fin 3) ∈ (takeP B N K B' R C wf).startIndexMap from (show (1 : Fin 3) ∈ ([0, 1] : List (Fin 3)) by decide))]
    have hsi : (takeP B N K B' R C wf).siIdx y ⟨List.idxOf (1 : Fin 3) (takeP B N K B' R C wf).startIndexMap,
        List.idxOf_lt_length_iff.2 (show (1 : Fin 3) ∈ ([0, 1] : List (Fin 3)) by decide)⟩ = takePIdx y 1 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show (takeP B N K B' R C wf).start y idx 2 + (takeP B N K B' R C wf).batchCoord y 2 + (takeP B N K B' R C wf).offCoord y 2
      = (y 3).val
    rw [GatherDims.batchCoord_eq_zero _ _ _ List.not_mem_nil]
    have hs : (takeP B N K B' R C wf).start y idx 2 = 0 := by
      unfold GatherDims.start
      rw [dif_neg (show (2 : Fin 3) ∉ (takeP B N K B' R C wf).startIndexMap from (show (2 : Fin 3) ∉ ([0, 1] : List (Fin 3)) by decide))]
    rw [hs]
    simp only [Nat.zero_add, Nat.add_zero]
    unfold GatherDims.offCoord
    rw [dif_pos (show (2 : Fin 3) ∈ (takeP B N K B' R C wf).sKept from (GatherDims.mem_sKept _ _).mpr ⟨(show (2 : Fin 3) ∉ ([0, 1] : List (Fin 3)) by decide), List.not_mem_nil⟩)]
    rfl

end Idealize.ShloMosaic.BatchGather
-- ==== Proof.HostArrays.lean ====
/-
  The eight arrays the kernel's windows stage, as the host operations before the launch leave them, read at an index.

  Before the launch the host slices the positions into three coordinate channels `[4, 2048]`, wraps the neighbour
  words, gathers each channel at the wrapped words (a batched take: batch `b` reads row `b` of the channel), views each
  channel and the mask (converted to `0.0` / `1.0`) as columns `[4, 2048, 1]`, and the mask also as rows `[4, 1, 2048]`.
  Read index by index these are coordinates of the positions and mask values, so the kernel's function `H` of the eight
  arrays is the specification's `G` of the three arguments.
-/
import proofs.«148944_j42941083025444_1_alg».proof.Proof.FrameIdeal
import proofs.«148944_j42941083025444_1_alg».proof.Proof.Spec
import proofs.«148944_j42941083025444_1_alg».proof.Proof.LibBatchGather
import Idealize.ShloMosaic.Lib.StableHlo.Run
import Idealize.ShloMosaic.Lib.Pipeline.Value
import Idealize.ShloMosaic.PureOps.Ideal

noncomputable section

namespace Cert.AtomDist.Host

open Cert.KernelIdeal Cert.KernelIdeal.Gen Cert.KernelIdeal.GenP
open Idealize.ShloMosaic Idealize.ShloMosaic.TcCoe Idealize.SL.Sem Idealize.ShloMosaic.StableHlo
open Idealize.ShloMosaic.ValueIdx Idealize.ShloMosaic.BatchGather
open Cert.AtomDist

variable (m : (ℓ : Loc nD τ sig) → Buf (Elt Ideal) ℓ)

/-- The three arguments as launched, on core `c`. -/
abbrev pos (c : Dev nD) : S4x2048x3.Idx → EReal := m ((c : Thread nD τ).loc main_arg0)
abbrev nbr (c : Dev nD) : S4x2048x2048.Idx → BitVec 32 := m ((c : Thread nD τ).loc main_arg1)
abbrev msk (c : Dev nD) : S4x2048.Idx → BitVec 1 := m ((c : Thread nD τ).loc main_arg2)

/-- Coordinate channel `kk` of the positions: the slice `[:, :, kk:kk+1]` viewed `[4, 2048]`. -/
def chan (kk : Nat) (h : S4x2048x3.Slices ![0, 0, kk] S4x2048x1) (x : S4x2048x3.Idx → EReal) : S4x2048.Idx → EReal :=
  shapeCast S4x2048 (extractStridedSlice S4x2048x1 ![0, 0, kk] x h) shapeCasts_S4x2048x1_S4x2048

/-- The wrapped neighbour words with a trailing unit axis: the gathers' start indices. -/
def widx (n : S4x2048x2048.Idx → BitVec 32) : S4x2048x2048x1.Idx → BitVec 32 :=
  broadcastInDim S4x2048x2048x1 ![0, 1, 2] bcast_S4x2048x2048_S4x2048x2048x1_0_1_2
    (select (cmpi .slt n (broadcastInDim S4x2048x2048 ![] bcast_S_S4x2048x2048 (constantI S_ 32 0#32)))
      (addi n (broadcastInDim S4x2048x2048 ![] bcast_S_S4x2048x2048 (constantI S_ 32 2048#32))) n)

/-! ## The arrays at the launch -/

set_option maxHeartbeats 2000000 in
theorem V_v12 (c : Dev nD) : (V m c main_v12 : S4x2048x2048.Idx → EReal)
    = Host.gather gather_S4x2048_S4x2048x2048x1_S4x2048x2048_n_1_0_0_1_3_11 (chan 0 slices_S4x2048x3_S4x2048x1_0_0_0 (pos m c)) (widx (nbr m c)) := by
  dsimp only [V, hostOps0]; after_results; rfl
set_option maxHeartbeats 2000000 in
theorem V_v19 (c : Dev nD) : (V m c main_v19 : S4x2048x2048.Idx → EReal)
    = Host.gather gather_S4x2048_S4x2048x2048x1_S4x2048x2048_n_1_0_0_1_3_11 (chan 1 slices_S4x2048x3_S4x2048x1_0_0_1 (pos m c)) (widx (nbr m c)) := by
  dsimp only [V, hostOps0]; after_results; rfl
set_option maxHeartbeats 2000000 in
theorem V_v26 (c : Dev nD) : (V m c main_v26 : S4x2048x2048.Idx → EReal)
    = Host.gather gather_S4x2048_S4x2048x2048x1_S4x2048x2048_n_1_0_0_1_3_11 (chan 2 slices_S4x2048x3_S4x2048x1_0_0_2 (pos m c)) (widx (nbr m c)) := by
  dsimp only [V, hostOps0]; after_results; rfl
set_option maxHeartbeats 2000000 in
theorem V_v30 (c : Dev nD) : (V m c main_v30 : S4x2048x1.Idx → EReal)
    = shapeCast S4x2048x1 (chan 0 slices_S4x2048x3_S4x2048x1_0_0_0 (pos m c)) shapeCasts_S4x2048_S4x2048x1 := by
  dsimp only [V, hostOps0]; after_results; rfl
set_option maxHeartbeats 2000000 in
theorem V_v31 (c : Dev nD) : (V m c main_v31 : S4x2048x1.Idx → EReal)
    = shapeCast S4x2048x1 (chan 1 slices_S4x2048x3_S4x2048x1_0_0_1 (pos m c)) shapeCasts_S4x2048_S4x2048x1 := by
  dsimp only [V, hostOps0]; after_results; rfl
set_option maxHeartbeats 2000000 in
theorem V_v32 (c : Dev nD) : (V m c main_v32 : S4x2048x1.Idx → EReal)
    = shapeCast S4x2048x1 (chan 2 slices_S4x2048x3_S4x2048x1_0_0_2 (pos m c)) shapeCasts_S4x2048_S4x2048x1 := by
  dsimp only [V, hostOps0]; after_results; rfl
set_option maxHeartbeats 2000000 in
theorem V_v28 (c : Dev nD) : (V m c main_v28 : S4x2048x1.Idx → EReal)
    = shapeCast S4x2048x1 (uitofp (F := Ideal) .f32 (msk m c)) shapeCasts_S4x2048_S4x2048x1 := by
  dsimp only [V, hostOps0]; after_results; rfl
set_option maxHeartbeats 2000000 in
theorem V_v29 (c : Dev nD) : (V m c main_v29 : S4x1x2048.Idx → EReal)
    = shapeCast S4x1x2048 (uitofp (F := Ideal) .f32 (msk m c)) shapeCasts_S4x2048_S4x1x2048 := by
  dsimp only [V, hostOps0]; after_results; rfl

/-! ## Read at an index -/

/-- Channel `kk` at `(b, a)` is coordinate `kk` of atom `a` in batch `b`. -/
theorem chan_apply (kk : Nat) (hk : kk < 3) (h : S4x2048x3.Slices ![0, 0, kk] S4x2048x1) (x : S4x2048x3.Idx → EReal)
    (b : Fin 4) (a : Fin 2048) : chan kk h x (ix2 b a) = x (ix3 b a ⟨kk, hk⟩) := by
  unfold chan
  refine (shapeCast_apply _ shapeCasts_S4x2048x1_S4x2048 (ix2 b a) (ix3 b a (0 : Fin 1)) ?_).trans ?_
  · rw [Shape.rowMajor_val_three, Shape.rowMajor_val_two]
    show (b.val * 2048 + a.val) * 1 + 0 = b.val * 2048 + a.val
    omega
  · refine extractStridedSlice_apply _ x h _ _ (fun ax => ?_)
    match ax with
    | ⟨0, _⟩ => show b.val = 0 + b.val; omega
    | ⟨1, _⟩ => show a.val = 0 + a.val; omega
    | ⟨2, _⟩ => show kk = kk + 0; omega

/-- A `[4, 2048]` array viewed as a column `[4, 2048, 1]`, at `(b, i, 0)`. -/
theorem col_apply {α : Type} (v : S4x2048.Idx → α) (b : Fin 4) (i : Fin 2048) :
    shapeCast S4x2048x1 v shapeCasts_S4x2048_S4x2048x1 (ix3 b i (0 : Fin 1)) = v (ix2 b i) :=
  shapeCast_apply v shapeCasts_S4x2048_S4x2048x1 _ _ (by
    rw [Shape.rowMajor_val_three, Shape.rowMajor_val_two]
    show b.val * 2048 + i.val = (b.val * 2048 + i.val) * 1 + 0
    omega)

/-- A `[4, 2048]` array viewed as a row `[4, 1, 2048]`, at `(b, 0, j)`. -/
theorem row_apply {α : Type} (v : S4x2048.Idx → α) (b : Fin 4) (j : Fin 2048) :
    shapeCast S4x1x2048 v shapeCasts_S4x2048_S4x1x2048 (ix3 b (0 : Fin 1) j) = v (ix2 b j) :=
  shapeCast_apply v shapeCasts_S4x2048_S4x1x2048 _ _ (by
    rw [Shape.rowMajor_val_three, Shape.rowMajor_val_two]
    show b.val * 2048 + j.val = (b.val * 1 + 0) * 2048 + j.val
    omega)

/-- The start index of result entry `(b, i, j)`: the neighbour word there, wrapped. -/
theorem widx_apply (n : S4x2048x2048.Idx → BitVec 32) (b : Fin 4) (i j : Fin 2048) :
    widx n (takeBIdx (ix3 b i j)) = wrapIdx (n (ix3 b i j)) := by
  unfold widx
  refine (broadcastInDim_apply _ bcast_S4x2048x2048_S4x2048x2048x1_0_1_2 _ _ (ix3 b i j) (fun a => ?_)).trans ?_
  · match a with
    | ⟨0, _⟩ => show b.val = if (4 : Nat) = 1 then 0 else b.val; rw [if_neg (by decide)]
    | ⟨1, _⟩ => show i.val = if (2048 : Nat) = 1 then 0 else i.val; rw [if_neg (by decide)]
    | ⟨2, _⟩ => show j.val = if (2048 : Nat) = 1 then 0 else j.val; rw [if_neg (by decide)]
  · rfl

/-- A gathered channel at `(b, i, j)`: coordinate `kk` of the atom the neighbour word names, in batch `b`. -/
theorem gath_apply (kk : Nat) (hk : kk < 3) (h : S4x2048x3.Slices ![0, 0, kk] S4x2048x1) (x : S4x2048x3.Idx → EReal)
    (n : S4x2048x2048.Idx → BitVec 32) (b : Fin 4) (i j : Fin 2048) :
    Host.gather gather_S4x2048_S4x2048x2048x1_S4x2048x2048_n_1_0_0_1_3_11 (chan kk h x) (widx n) (ix3 b i j)
      = x (ix3 b (atomOf (n (ix3 b i j))) ⟨kk, hk⟩) := by
  refine (takeB_apply (by decide) _ (chan kk h x) (widx n) (ix3 b i j)).trans ?_
  refine (congrArg (chan kk h x) ?_).trans (chan_apply kk hk h x b (atomOf (n (ix3 b i j))))
  funext a; refine Fin.ext ?_
  match a with
  | ⟨0, _⟩ => rfl
  | ⟨1, _⟩ =>
    show min (widx n (takeBIdx (ix3 b i j))).toInt.toNat (2048 - 1) = (atomOf (n (ix3 b i j))).val
    rw [widx_apply]; rfl

/-- THE KERNEL'S FUNCTION of the eight staged arrays is the specification's function of the three arguments. -/
theorem windows_eq (c : Dev nD) :
    H (V m c main_v12) (V m c main_v19) (V m c main_v26) (V m c main_v30) (V m c main_v31) (V m c main_v32)
      (V m c main_v28) (V m c main_v29) = G (pos m c) (nbr m c) (msk m c) := by
  rw [V_v12, V_v19, V_v26, V_v30, V_v31, V_v32, V_v28, V_v29]
  funext y
  obtain ⟨b, i, j, rfl⟩ : ∃ (b : Fin 4) (i j : Fin 2048), y = ix3 b i j := ⟨y 0, y 1, y 2, eq_ix3 y⟩
  unfold H G
  dsimp only
  rw [gath_apply 0 (by decide), gath_apply 1 (by decide), gath_apply 2 (by decide), col_apply, col_apply, col_apply,
    chan_apply 0 (by decide), chan_apply 1 (by decide), chan_apply 2 (by decide), col_apply, row_apply]
  rfl

end Cert.AtomDist.Host

end
-- ==== Proof.KernelBlocks.lean ====
/-
  From the blocks to the array: after the kernel's run the output array is `G` of the three arguments.

  Point `(b, τ)` of the 4 × 16 grid stages rows `128 τ … 128 τ + 127` of batch `b` of each gathered array, the same rows of
  the four columns, the whole mask row of batch `b`, and writes back the same rows of the output. So position `(p, q)`
  of the block written at `(b, τ)` is array entry `(b, 128 τ + p, q)`, every staged value it depends on sits at the
  matching array index, and the body's row word `p + 128 τ` is that row's number: the block written is the block of the
  whole-array function `H` of the staged arrays. The 64 blocks tile the output array, so the array is `H` of the staged
  arrays, which is `G` of the arguments.
-/
import proofs.«148944_j42941083025444_1_alg».proof.Proof.BlockTables
import proofs.«148944_j42941083025444_1_alg».proof.Proof.KernelCell
import proofs.«148944_j42941083025444_1_alg».proof.Proof.HostArrays

noncomputable section

namespace Cert.AtomDist.Blocks

open Cert.KernelIdeal Cert.KernelIdeal.Gen Cert.KernelIdeal.GenP Cert.KernelIdeal.ValueP
open Idealize.ShloMosaic Idealize.ShloMosaic.TcCoe Idealize.SL.Sem Idealize.ShloMosaic.ValueIdx
open Idealize.ShloMosaic.Pipeline (Dat)
open Cert.AtomDist Cert.AtomDist.Kern Cert.AtomDist.Host

variable (m : (ℓ : Loc nD τ sig) → Buf (Elt Ideal) ℓ) (ρ : Dev nD → PrngReg)

/-! ## The block a point writes back -/

/-- `H` of the eight staged arrays as the launch finds them. -/
abbrev Hm (c : Dev nD) : S4x2048x2048.Idx → EReal :=
  H (V m c main_v12) (V m c main_v19) (V m c main_v26) (V m c main_v30) (V m c main_v31) (V m c main_v32)
    (V m c main_v28) (V m c main_v29)

/-- WHAT POINT `t` WRITES BACK is block `t` of `H` of the staged arrays. -/
theorem flushed8_eq (c : Dev nD) (t : Fin cfg0.N) :
    (dats m 0 c).flushed 8 t = ((cfg0.win 8).blk t).view.read (Elt Ideal) (Hm m c) := by
  rw [flushed8]
  unfold out0_8
  rw [View.canon_unit_zero hz3]
  simp only [View.ld_unit_zero (S := S1x128x2048) hz3, View.ld_unit_zero (S := S1x128x1) hz3,
    View.ld_unit_zero (S := S1x1x2048) hz3]
  show (k0_pay1 (F := Ideal) (BitVec.ofNat 32 ((grid0.coords t) (1 : Fin 2)).val)
      (k0_pay2 (F := Ideal) (iblk m c 0 t) (iblk m c 1 t) (iblk m c 2 t) (iblk m c 3 t) (iblk m c 4 t) (iblk m c 5 t))
      (Scalar.ofBits .f32 0x3F800000#32) (iblk m c 6 t) (iblk m c 7 t) : S1x128x2048.Idx → EReal)
    = fun y : S1x128x2048.Idx => Hm m c (((cfg0.win 8).blk t).view.emb y)
  funext y
  obtain ⟨u, p, q, rfl⟩ : ∃ (u : Fin 1) (p : Fin 128) (q : Fin 2048), y = ix3 u p q := ⟨y 0, y 1, y 2, eq_ix3 y⟩
  refine (block_apply _ (iblk m c 0 t) (iblk m c 1 t) (iblk m c 2 t) (iblk m c 3 t) (iblk m c 4 t) (iblk m c 5 t)
    (iblk m c 6 t) (iblk m c 7 t) u p q).trans ?_
  rw [read0, read1, read2, read3, read4, read5, read6, read7, emb8, rowWord, (idx8 t).2.2.2]
  rfl

/-! ## The blocks tile the array -/

/-- An index is in point `t`'s output block iff each coordinate is in the block's range on its axis. -/
theorem mem_blk8 (t : Fin cfg0.N) (i : S4x2048x2048.Idx) :
    i ∈ ((cfg0.win 8).blk t).view.set ↔ ∀ a : Fin 3, win0_8.index t a * S1x128x2048.size a ≤ (i a).val
      ∧ (i a).val < win0_8.index t a * S1x128x2048.size a + S1x128x2048.size a := by
  show i ∈ ((View.whole main_v33).slice (win0_8.rect t)).set ↔ _
  rw [View.set_slice_whole, Rect.mem_set_unit]
  exact Iff.rfl

/-- Every index of the output array is in some point's block: the point of its batch and of its row's block of 128. -/
theorem cover8 (i : S4x2048x2048.Idx) :
    ∃ t : Fin cfg0.N, (cfg0.win 8).flush t = true ∧ i ∈ ((cfg0.win 8).blk t).view.set := by
  have hi0 : (i 0).val < 4 := (i 0).isLt
  have hi1 : (i 1).val < 2048 := (i 1).isLt
  have hi2 : (i 2).val < 2048 := (i 2).isLt
  obtain ⟨t, ht⟩ := idx_onto8 ⟨(i 0).val, hi0⟩ ⟨(i 1).val / 128, by omega⟩
  have q0 : win0_8.index t (0 : Fin 3) = (i 0).val := congrFun ht 0
  have q1 : win0_8.index t (1 : Fin 3) = (i 1).val / 128 := congrFun ht 1
  have q2 : win0_8.index t (2 : Fin 3) = 0 := congrFun ht 2
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; omega
  | ⟨1, _⟩ => show win0_8.index t (1 : Fin 3) * 128 ≤ (i 1).val ∧ (i 1).val < win0_8.index t (1 : Fin 3) * 128 + 128; omega
  | ⟨2, _⟩ => show win0_8.index t (2 : Fin 3) * 2048 ≤ (i 2).val ∧ (i 2).val < win0_8.index t (2 : Fin 3) * 2048 + 2048; omega

/-- THE OUTPUT ARRAY after the run is `G` of the three arguments. -/
theorem final8 (c : Dev nD) : (dats m 0 c).arrAt 8 cfg0.N = G (pos m c) (nbr m c) (msk m c) :=
  ((dats m 0 c).arrAt_eq_of_cover 8 (Hm m c) (fun t _ => flushed8_eq m c t) cover8).trans (windows_eq m c)

/-- The kernel's run with its result named: the output array ends at `G` of the arguments, the arguments unchanged. -/
theorem run : θ_run defs (onTc (τ := τ) (main (F := Ideal))) ⟨m, fun _ => 0, ρ⟩ fun r => ∀ c : Dev nD,
      r.2.mem ((c : Thread nD τ).loc main_v33) = G (pos m c) (nbr m c) (msk m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final8 m c), (h c).2⟩) (run_blocks m ρ)

end Cert.AtomDist.Blocks

end
-- ==== Proof.RefSide.lean ====
/-
  The reference's result, read at an index, is the function `G` of the specification.

  The reference gathers whole coordinate rows `pos[batch, atom, ·]` by a PAIR of indices (the batch number from an
  iota, and the wrapped neighbour index), subtracts the query atom's row, sums the three squares into a zero initial
  value, guards the square root, inverts, zeroes the diagonal by a select on `row = column` and masks by a select on the
  AND of the two mask bits. Read index by index: the batch component of the pair is the batch number itself (it is
  never negative and never out of range), the atom component is `atomOf` of the neighbour word, the sum is the
  specification's left-to-right sum, and the final select is the product with the two mask values.
-/
import proofs.«148944_j42941083025444_1_alg».proof.Proof.Gen.ReferenceIdeal.Read
import proofs.«148944_j42941083025444_1_alg».proof.Proof.Spec
import proofs.«148944_j42941083025444_1_alg».proof.Proof.LibBatchGather

noncomputable section

namespace Cert.AtomDist.Ref

open Cert.ReferenceIdeal Cert.ReferenceIdeal.Gen Cert.ReferenceIdeal.Read
open Idealize.ShloMosaic Idealize.ShloMosaic.TcCoe Idealize.ShloMosaic.ValueIdx Idealize.ShloMosaic.BatchGather
open Cert.AtomDist

/-- A batch number, wrapped like an index and clamped into `[0, 3]`, is itself. -/
theorem batchWord : ∀ b : Fin 4,
    min (Scalar.select (IntOp.cmpi .slt (BitVec.ofNat 32 b.val) 0#32) (IntOp.addi (BitVec.ofNat 32 b.val) 4#32)
      (BitVec.ofNat 32 b.val)).toInt.toNat (4 - 1) = b.val := by decide

/-- The pair's first component at `(b, i, j)`: the batch number's word, wrapped. -/
theorem pair_fst (x1 : (⟨S4x2048x2048, .i32⟩ : BufTy).Contents (Elt Ideal)) (b : Fin 4) (i j : Fin 2048) (k : Fin 3) :
    val_main_v15 (F := Ideal) x1 (takePIdx (ix4 b i j k) 0)
      = Scalar.select (IntOp.cmpi .slt (BitVec.ofNat 32 b.val) 0#32) (IntOp.addi (BitVec.ofNat 32 b.val) 4#32)
          (BitVec.ofNat 32 b.val) := by
  unfold val_main_v15
  refine (concatenate_pair_apply_left (t := S4x2048x2048x2) (s₁ := S4x2048x2048x1) (s₂ := S4x2048x2048x1) 3 _ _ _
    (takePIdx (ix4 b i j k) 0) rfl (ix4 b i j (0 : Fin 1)) (fun a => ?_)).trans ?_
  · match a with
    | ⟨0, _⟩ => rfl
    | ⟨1, _⟩ => rfl
    | ⟨2, _⟩ => rfl
    | ⟨3, _⟩ => rfl
  · simp only [val_main_v13_apply, val_main_v12_apply, val_main_v6_apply, val_main_v3_apply, val_main_v5_apply,
      val_main_v1_apply, val_main_v0_apply, val_main_v2_apply, val_main_c_apply, val_main_v4_apply, val_main_c_0_apply]

/-- The pair's second component at `(b, i, j)`: the neighbour word, wrapped. -/
theorem pair_snd (x1 : (⟨S4x2048x2048, .i32⟩ : BufTy).Contents (Elt Ideal)) (b : Fin 4) (i j : Fin 2048) (k : Fin 3) :
    val_main_v15 (F := Ideal) x1 (takePIdx (ix4 b i j k) 1) = wrapIdx (x1 (ix3 b i j)) := by
  unfold val_main_v15
  refine (concatenate_pair_apply_right (t := S4x2048x2048x2) (s₁ := S4x2048x2048x1) (s₂ := S4x2048x2048x1) 3 _ _ _
    (takePIdx (ix4 b i j k) 1) rfl rfl (ix4 b i j (0 : Fin 1)) (fun a ha => ?_) rfl).trans ?_
  · match a with
    | ⟨0, _⟩ => rfl
    | ⟨1, _⟩ => rfl
    | ⟨2, _⟩ => rfl
    | ⟨3, _⟩ => exact absurd rfl ha
  · simp only [val_main_v14_apply, val_main_v11_apply, val_main_v8_apply, val_main_v10_apply, val_main_v7_apply,
      val_main_c_1_apply, val_main_v9_apply, val_main_c_2_apply]
    have e : idx_main_v14 (ix4 b i j (0 : Fin 1)) = ix3 b i j := by
      funext a; refine Fin.ext ?_
      match a with
      | ⟨0, _⟩ => rfl
      | ⟨1, _⟩ => rfl
      | ⟨2, _⟩ => rfl
    rw [e]
    rfl

/-- The gathered rows at `(b, i, j, k)`: coordinate `k` of the atom the neighbour word names, in batch `b`. -/
theorem gathered_apply (x0 : (⟨S4x2048x3, .f32⟩ : BufTy).Contents (Elt Ideal))
    (x1 : (⟨S4x2048x2048, .i32⟩ : BufTy).Contents (Elt Ideal)) (b : Fin 4) (i j : Fin 2048) (k : Fin 3) :
    val_main_v16 (F := Ideal) x0 x1 (ix4 b i j k) = x0 (ix3 b (atomOf (x1 (ix3 b i j))) k) := by
  unfold val_main_v16
  refine (takeP_apply (by decide) (by decide) _ x0 _ (ix4 b i j k)).trans ?_
  refine congrArg x0 (funext fun a => Fin.ext ?_)
  match a with
  | ⟨0, _⟩ =>
    show min (val_main_v15 (F := Ideal) x1 (takePIdx (ix4 b i j k) 0)).toInt.toNat (4 - 1) = b.val
    rw [pair_fst]; exact batchWord b
  | ⟨1, _⟩ =>
    show min (val_main_v15 (F := Ideal) x1 (takePIdx (ix4 b i j k) 1)).toInt.toNat (2048 - 1) = (atomOf (x1 (ix3 b i j))).val
    rw [pair_snd]; rfl
  | ⟨2, _⟩ => rfl

/-- One square of the sum: coordinate `k`'s difference between the named atom and the query atom, squared. -/
theorem square_apply (x0 : (⟨S4x2048x3, .f32⟩ : BufTy).Contents (Elt Ideal))
    (x1 : (⟨S4x2048x2048, .i32⟩ : BufTy).Contents (Elt Ideal)) (b : Fin 4) (i j : Fin 2048) (k : Fin 3) :
    val_main_v20 (F := Ideal) x0 x1 (idx_main_v21 (ix3 b i j) k)
      = (x0 (ix3 b (atomOf (x1 (ix3 b i j))) k) - x0 (ix3 b i k)) * (x0 (ix3 b (atomOf (x1 (ix3 b i j))) k) - x0 (ix3 b i k)) := by
  have e1 : idx_main_v21 (ix3 b i j) k = ix4 b i j k := by
    funext a; refine Fin.ext ?_
    match a with
    | ⟨0, _⟩ => rfl
    | ⟨1, _⟩ => rfl
    | ⟨2, _⟩ => rfl
    | ⟨3, _⟩ => rfl
  have e2 : idx_main_v17 (idx_main_v18 (ix4 b i j k)) = ix3 b i k := by
    funext a; refine Fin.ext ?_
    match a with
    | ⟨0, _⟩ => rfl
    | ⟨1, _⟩ => rfl
    | ⟨2, _⟩ => rfl
  rw [e1, val_main_v20_apply, val_main_v19_apply, gathered_apply, val_main_v18_apply, val_main_v17_apply, e2]
  rfl

/-- The reference's sum of squares at `(b, i, j)` is the specification's squared distance. -/
theorem sq_apply (x0 : (⟨S4x2048x3, .f32⟩ : BufTy).Contents (Elt Ideal))
    (x1 : (⟨S4x2048x2048, .i32⟩ : BufTy).Contents (Elt Ideal)) (b : Fin 4) (i j : Fin 2048) :
    val_main_v21 (F := Ideal) x0 x1 (ix3 b i j)
      = sqDist (x0 (ix3 b (atomOf (x1 (ix3 b i j))) (0 : Fin 3))) (x0 (ix3 b (atomOf (x1 (ix3 b i j))) (1 : Fin 3)))
          (x0 (ix3 b (atomOf (x1 (ix3 b i j))) (2 : Fin 3)))
          (x0 (ix3 b i (0 : Fin 3))) (x0 (ix3 b i (1 : Fin 3))) (x0 (ix3 b i (2 : Fin 3))) := by
  rw [val_main_v21_apply]
  refine (zero_add_sum3 _).trans ?_
  simp only [square_apply]
  rfl

/-- The reference's diagonal bit at `(b, i, j)`. -/
theorem diag_apply (b : Fin 4) (i j : Fin 2048) : val_main_call2_v1 (F := Ideal) (ix3 b i j) = diagBit i j := by
  rw [val_main_call2_v1_apply, val_main_v43_apply, val_main_v42_apply, val_main_v41_apply, val_main_v38_apply,
    val_main_v39_apply, val_main_v40_apply, val_main_c_9_apply]
  show IntOp.cmpi .eq (IntOp.addi (BitVec.ofNat 32 i.val) 0#32) (BitVec.ofNat 32 j.val) = _
  unfold diagBit IntOp.addi
  rw [BitVec.add_zero]

/-- The reference's pair mask bit at `(b, i, j)`: the AND of the row's and the column's bits. -/
theorem maskBits_apply (x2 : (⟨S4x2048, .i1⟩ : BufTy).Contents (Elt Ideal)) (b : Fin 4) (i j : Fin 2048) :
    val_main_v37 (F := Ideal) x2 (ix3 b i j) = IntOp.andi (x2 (ix2 b i)) (x2 (ix2 b j)) := by
  rw [val_main_v37_apply, val_main_v35_apply, val_main_v33_apply, val_main_v36_apply, val_main_v34_apply]
  have e1 : idx_main_v33 (idx_main_v35 (ix3 b i j)) = ix2 b i := by
    funext a; refine Fin.ext ?_
    match a with
    | ⟨0, _⟩ => rfl
    | ⟨1, _⟩ => rfl
  have e2 : idx_main_v34 (idx_main_v36 (ix3 b i j)) = ix2 b j := by
    funext a; refine Fin.ext ?_
    match a with
    | ⟨0, _⟩ => rfl
    | ⟨1, _⟩ => rfl
  rw [e1, e2]

/-- THE REFERENCE'S RESULT is `G` of the three arguments. -/
theorem result_eq (x0 : (⟨S4x2048x3, .f32⟩ : BufTy).Contents (Elt Ideal))
    (x1 : (⟨S4x2048x2048, .i32⟩ : BufTy).Contents (Elt Ideal)) (x2 : (⟨S4x2048, .i1⟩ : BufTy).Contents (Elt Ideal)) :
    val_main_v45 (F := Ideal) x0 x1 x2 = G x0 x1 x2 := by
  funext y
  obtain ⟨b, i, j, rfl⟩ : ∃ (b : Fin 4) (i j : Fin 2048), y = ix3 b i j := ⟨y 0, y 1, y 2, eq_ix3 y⟩
  rw [val_main_v45_apply, maskBits_apply, val_main_call3_v1_apply, val_main_call3_v0_apply, val_main_cst_11_apply]
  refine (mask_mul_eq_select _ _ _).trans ?_
  simp only [val_main_v44_apply, diag_apply, val_main_call2_v2_apply, val_main_call2_v0_apply, val_main_cst_10_apply,
    val_main_v32_apply, val_main_v31_apply, val_main_cst_8_apply, val_main_v30_apply, val_main_v28_apply,
    val_main_v27_apply, val_main_v25_apply, val_main_v24_apply, val_main_v23_apply, sq_apply, val_main_v22_apply,
    val_main_cst_3_apply, val_main_call0_v1_apply, val_main_call0_v0_apply, val_main_cst_4_apply, val_main_v26_apply,
    val_main_cst_5_apply, val_main_call1_v1_apply, val_main_call1_v0_apply, val_main_cst_6_apply, val_main_v29_apply,
    val_main_cst_7_apply]
  rfl

end Cert.AtomDist.Ref

end
-- ==== Proof.lean ====
/-
  Inverse pairwise distances to gathered neighbours, masked: a tiled kernel against its array-level reference.

  Inputs: positions `[4, 2048, 3]` (floats), neighbour indices `[4, 2048, 2048]` (32-bit words) and a mask `[4, 2048]`
  (bits). For batch `b`, query atom `i` and slot `j` let `a` be the atom the word `neighbors[b, i, j]` names (a negative
  word wraps by 2048; the result is read signed and clamped into `[0, 2047]`, as the gather of either program does).
  Both programs compute, over the extended reals,

      (if i = j then 0 else 1 / (dist + ε)) · mask[b, i] · mask[b, j],
      dist = if d² > 0 then √(if d² > 0 then d² else 1) else 0,    d² = Σₖ (pos[b, a, k] − pos[b, i, k])².

  The kernel's program gathers the three coordinate channels separately on the host (a batched take per channel),
  and its one grid of 4 × 16 points turns blocks of 128 query rows into blocks of the output: differences against the
  query atoms' own coordinates broadcast along the lanes, the three squares summed left to right, the guarded root,
  the reciprocal, a diagonal test on the row number `p + 128 · program_id(1)`, and a product with the two mask values.
  The reference gathers whole coordinate rows by a pair (batch, atom), sums the squares into a zero initial value,
  zeroes the diagonal by a select and masks by a select on the AND of the two mask bits.

  The two agree entry by entry (module `Spec`: the function `G`; `RefSide`: the reference's term is `G`; `KernelCell`,
  `HostArrays`, `KernelBlocks`: the kernel's output array is `G`). The laws used are associativity of `+` with `0` neutral
  and `x · 1 = x`, `x · 0 = 0` on the extended reals, which hold at the infinities too: the finiteness of the inputs is
  not needed for the values. The three frames are the kernel's frame run (for both readings of its program) and the
  reference's run with its result dropped; the idealization rewrote nothing, so its ledger is empty.
-/
import proofs.«148944_j42941083025444_1_alg».proof.Defs
import proofs.«148944_j42941083025444_1_alg».proof.Proof.Gen.Kernel
import proofs.«148944_j42941083025444_1_alg».proof.Proof.Gen.KernelIdeal
import proofs.«148944_j42941083025444_1_alg».proof.Proof.Gen.ReferenceIdeal
import proofs.«148944_j42941083025444_1_alg».proof.Proof.Gen.Pre_finite_inputs
import proofs.«148944_j42941083025444_1_alg».proof.Proof.Gen.ReferenceIdeal.Run
import proofs.«148944_j42941083025444_1_alg».proof.Proof.FrameBits
import proofs.«148944_j42941083025444_1_alg».proof.Proof.FrameIdeal
import proofs.«148944_j42941083025444_1_alg».proof.Proof.KernelBlocks
import proofs.«148944_j42941083025444_1_alg».proof.Proof.RefSide
import Idealize.ShloMosaic.Adequacy
import Idealize.ShloMosaic.Init

noncomputable section

namespace Cert.Proof

open Idealize.ShloMosaic Idealize.ShloMosaic.TcCoe Idealize.SL.Sem

/-- The kernel's program read at the word level runs and keeps its arguments. -/
theorem frame_kernel : Cert.frame_Kernel := fun m ρ _ => Cert.Kernel.GenP.frame m ρ

/-- The kernel's program read at the extended reals runs and keeps its arguments. -/
theorem frame_kernelIdeal : Cert.frame_KernelIdeal := fun m ρ _ => Cert.KernelIdeal.GenP.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the array `G` of those arguments. -/
theorem algebraic : Cert.algebraic_KernelIdeal_ReferenceIdeal := by
  intro m ρ m' ρ' _ hagree
  refine ⟨fun c => Cert.AtomDist.G (Cert.AtomDist.Host.pos m c) (Cert.AtomDist.Host.nbr m c) (Cert.AtomDist.Host.msk m c),
    Cert.AtomDist.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.AtomDist.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
